-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S50000 : Shape := ⟨1, ![50000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg7 : FVec F S3x128 .f32) (main_arg8 : FVec F S128x2 .f32) (main_arg9 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x2 .f32 := Host.absf main_arg8
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg9
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : IVec S50000 32) (main_arg4 : FVec F S256x128 .f32) (main_arg5 : FVec F S128 .f32) (main_arg6 : FVec F S3x128x128 .f32) (main_arg7 : FVec F S3x128 .f32) (main_arg8 : FVec F S128x2 .f32) (main_arg9 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_v13 main_v16
-- ==== Kernel.lean ====
abbrev S50000x256 : Shape := ⟨2, ![50000, 256]⟩
abbrev S800000 : Shape := ⟨1, ![800000]⟩
abbrev S50000 : Shape := ⟨1, ![50000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S1x128 : Shape := ⟨2, ![1, 128]⟩
abbrev S800000x128 : Shape := ⟨2, ![800000, 128]⟩
abbrev S1x128x128 : Shape := ⟨3, ![1, 128, 128]⟩
abbrev S128x128 : Shape := ⟨2, ![128, 128]⟩
abbrev S1x2 : Shape := ⟨2, ![1, 2]⟩
abbrev S128x5000 : Shape := ⟨2, ![128, 5000]⟩

abbrev nBuf : Space → Nat
  | .hbm => 56
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S256x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x2, .f32⟩
  | .hbm, ⟨9, _⟩ => ⟨S2, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S50000x1, .f32⟩
  | .hbm, ⟨52, _⟩ => ⟨S50000x128, .f32⟩
  | .hbm, ⟨53, _⟩ => ⟨S50000x1, .i32⟩
  | .hbm, ⟨54, _⟩ => ⟨S1x2, .f32⟩
  | .hbm, ⟨55, _⟩ => ⟨S128x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .i32⟩
  | .local _ .vmem, ⟨19, _⟩ => ⟨S5000x1, .i32⟩
  | .local _ .vmem, ⟨20, _⟩ => ⟨S128x2, .f32⟩
  | .local _ .vmem, ⟨21, _⟩ => ⟨S1x2, .f32⟩
  | .local _ .vmem, ⟨22, _⟩ => ⟨S128x2, .f32⟩
  | .local _ .vmem, ⟨23, _⟩ => ⟨S128x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S3x128x128_S1x128x128_2_0_0 : S3x128x128.Slices ![2, 0, 0] S1x128x128
  shapeCasts_S1x128x128_S128x128 : S1x128x128.ShapeCasts S128x128
  slices_S3x128_S1x128_2_0 : S3x128.Slices ![2, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  shapeCasts_S2_S1x2 : S2.ShapeCasts S1x2
  iota_S5000x128_d1_w32 : S5000x128.Iotas .tc 32 [1]
  natLt_1_32 : 1 < 32
  transposes_S5000x128_p1_0_S128x5000 : S5000x128.Transposes [1, 0] S128x5000
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S128x5000_S5000x128_S128x128_1_0_0_1_n_n_wf : DotDims.WF S128x5000 S5000x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x5000_S5000x128_S128x128_1_0_0_1_n_n : DotDims S128x5000 S5000x128 S128x128 where
  lhsContracting := [1]
  rhsContracting := [0]
  lhsNonContracting := [0]
  rhsNonContracting := [1]
  lhsBatch := []
  rhsBatch := []
  wf := dot_S128x5000_S5000x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S128x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x256 : Shape := ⟨2, ![50000, 256]⟩
abbrev S800000 : Shape := ⟨1, ![800000]⟩
abbrev S50000 : Shape := ⟨1, ![50000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S50000x1 : Shape := ⟨2, ![50000, 1]⟩
abbrev S800000x128 : Shape := ⟨2, ![800000, 128]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S50000, .i32⟩
  | 4 => ⟨S256x128, .f32⟩
  | 5 => ⟨S128, .f32⟩
  | 6 => ⟨S3x128x128, .f32⟩
  | 7 => ⟨S3x128, .f32⟩
  | 8 => ⟨S128x2, .f32⟩
  | 9 => ⟨S2, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x128, .f32⟩
  | 33 => ⟨S1x128, .f32⟩
  | 34 => ⟨S50000x128, .f32⟩
  | 35 => ⟨S50000x128, .f32⟩
  | 36 => ⟨S1x128x128, .f32⟩
  | 37 => ⟨S128x128, .f32⟩
  | 38 => ⟨S1x128, .f32⟩
  | 39 => ⟨S128, .f32⟩
  | 40 => ⟨S50000x1, .f32⟩
  | 41 => ⟨S50000x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S_, .f32⟩
  | 65 => ⟨S50000x128, .f32⟩
  | 66 => ⟨S50000x128, .i1⟩
  | 67 => ⟨S_, .f32⟩
  | 68 => ⟨S50000x128, .f32⟩
  | 69 => ⟨S50000x128, .f32⟩
  | 70 => ⟨S50000x128, .f32⟩
  | 71 => ⟨S1x128x128, .f32⟩
  | 72 => ⟨S128x128, .f32⟩
  | 73 => ⟨S1x128, .f32⟩
  | 74 => ⟨S128, .f32⟩
  | 75 => ⟨S50000x1, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S_, .f32⟩
  | 100 => ⟨S50000x128, .f32⟩
  | 101 => ⟨S50000x128, .i1⟩
  | 102 => ⟨S_, .f32⟩
  | 103 => ⟨S50000x128, .f32⟩
  | 104 => ⟨S50000x128, .f32⟩
  | 105 => ⟨S50000x128, .f32⟩
  | 106 => ⟨S1x128x128, .f32⟩
  | 107 => ⟨S128x128, .f32⟩
  | 108 => ⟨S1x128, .f32⟩
  | 109 => ⟨S128, .f32⟩
  | 110 => ⟨S50000x1, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x1, .f32⟩
  | 127 => ⟨S50000x128, .f32⟩
  | _ => ⟨S50000x256, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S_, .f32⟩
  | 7 => ⟨S50000x128, .f32⟩
  | 8 => ⟨S50000x128, .i1⟩
  | 9 => ⟨S_, .f32⟩
  | 10 => ⟨S50000x128, .f32⟩
  | 11 => ⟨S50000x128, .f32⟩
  | 12 => ⟨S50000x128, .f32⟩
  | 13 => ⟨S_, .f32⟩
  | 14 => ⟨S128x128, .f32⟩
  | 15 => ⟨S50000x1, .i32⟩
  | 16 => ⟨S128x128, .f32⟩
  | 17 => ⟨S128x2, .f32⟩
  | 18 => ⟨S1x2, .f32⟩
  | 19 => ⟨S128x2, .f32⟩
  | 20 => ⟨S128x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_13 : Ref sig .tc := ⟨.hbm, 113, rfl⟩
abbrev main_v76 : Ref sig .tc := ⟨.hbm, 114, rfl⟩
abbrev main_v77 : Ref sig .tc := ⟨.hbm, 115, rfl⟩
abbrev main_c_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v93 : Ref sig .tc := ⟨.hbm, 140, rfl⟩
abbrev main_cst_17 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x2_S128x2_1_0_0_1_n_n_wf : DotDims.WF S128x128 S128x2 S128x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KI.R0D.lean ====
/-
  Region 0 (the linear layer fused with the source-side normalisation), the objects its frame and its value are stated over:
  a window's block at a grid point, what the body leaves in the output block — (x·w + b)·norm on the point's 5000 rows —,
  and the pipeline's proof data at the contents `V` the region is entered from.
-/
import proofs.«405063_j37941741093409_1_alg».proof.Proof.Gen.KernelIdeal.Launch
import proofs.«405063_j37941741093409_1_alg».proof.Proof.Gen.KernelIdeal.Skeleton
import proofs.«405063_j37941741093409_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_b : Rect S128 := Rect.unit (s := S128) ![0] S128.size inb_S128_S128_0
abbrev r0_n : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

/-- The output block after the body, from the four input blocks: one store of the whole block. -/
def out0_4 (x0 : Vec F S5000x256 .f32) (x1 : Vec F S256x128 .f32) (x2 : Vec F S128 .f32) (x3 : Vec F S5000x1 .f32) : Vec F S5000x128 .f32 :=
  View.canon [⟨r0_o, k0_pay1 (View.ld x0 r0_x) (View.ld x1 r0_w) (View.ld x2 r0_b) (View.ld x3 r0_n)⟩]

/-- The proof data of pipeline 0 on core `c`: the arrays as the region finds them; after the body each input block in
    place and the output block at `out0_4` of them; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

end Cert.KernelIdeal.Hand

end
-- ==== Proof.KI.R0.lean ====
/-
  Region 0 (the linear layer fused with the source-side normalisation): the body's half of the frame.
  At every grid point the body finds, in each of the four input windows' staging buffers, that window's block
  (whether or not the pipeline moved it there at this very point), reads all four whole, and overwrites the whole
  output buffer with one payload of them; so the output buffer ends at the canonical contents of that single store,
  the inputs stay as found, and the invariant and the debts are not touched.
-/
import proofs.«405063_j37941741093409_1_alg».proof.Proof.KI.R0D

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the input windows

Each of the four inputs is an uncut window that is never idle and whose block the body leaves in place. Such a
window's current staging buffer holds the block of the point: where the pipeline fetched it, because the fetch put it
there; where it did not (the weights and the bias are moved at the first point only), because the block index has not
moved since the last fetch and the body kept the buffer. -/

/-- The activations' block (5000 rows of 256) is in window 0's buffer at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights (256 × 128), moved once, are in window 1's buffer at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias (128), moved once, is in window 2's buffer at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The per-row scale (5000 × 1) is in window 3's buffer at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The output block is written whole -/

/-- The one store goes through the rectangle of all 5000 × 128 indices, so whatever it carries, every index of the
    output block lies in that piece. -/
theorem cover0_o (p : Vec F S5000x128 .f32) (y : S5000x128.Idx) :
    ∃ pc ∈ ([⟨r0_o, p⟩] : List (View.Piece (Elt F) S5000x128 .f32)), y ∈ pc.1.set :=
  View.cover_of_tiled [⟨r0_o, p⟩] S5000x128.size (by rfl) y

/-! ## The body on its five staging buffers -/

set_option maxHeartbeats 1000000 in
/-- Run on whole buffers — the four inputs' at read contents `x0 … x3`, the output's at anything —, the body reaches
    its continuation with the inputs as they were and the output at `out0_4 x0 x1 x2 x3`. Five whole-buffer loads (the
    fifth, of the output buffer, feeds nothing) and one whole-buffer store of the payload: what any view reads after
    a store that covers the shape is the canonical contents of that store, whatever was there before. -/
theorem sound_kernel0 (c : Dev nD) (E : Set ℕ) (i : grid0.Coords)
    (a0 : Memref sig .tc .vmem S5000x256 .f32) (h0 : a0.IsWhole) (a1 : Memref sig .tc .vmem S256x128 .f32) (h1 : a1.IsWhole)
    (a2 : Memref sig .tc .vmem S128 .f32) (h2 : a2.IsWhole) (a3 : Memref sig .tc .vmem S5000x1 .f32) (h3 : a3.IsWhole)
    (a4 : Memref sig .tc .vmem S5000x128 .f32) (h4 : a4.IsWhole)
    (x0 : Vec F S5000x256 .f32) (x1 : Vec F S256x128 .f32) (x2 : Vec F S128 .f32) (x3 : Vec F S5000x1 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out0_4 x0 x1 x2 x3)) -∗ K ⟨⟩))
      ⊢ wp frame (wpE (defs₀ (F := F)) Variants.none c none) E (cc0__linear_kernel i a0 h0 a1 h1 a2 h2 a3 h3 a4 h4) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_o _)

/-! ## The obligation at a point -/

/-- What the pipeline hands the body at point `t`: the invariant, the debts, and the five current staging buffers at
    what they then hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it takes back: the same invariant and debts, the buffers at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the four input buffers hold their blocks, so the body's triple applies at those blocks; the invariant
    and the debts do not depend on the point and ride through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1D.lean ====
/-
  Region 1 (the graph convolution's dense half), the objects its frame and its value are stated over: a window's block at a
  grid point, what the body leaves in the output block — leaky_relu((agg·norm)·w + b) on the point's 5000 rows —, and the
  pipeline's proof data at the contents `V` the region is entered from.
-/
import proofs.«405063_j37941741093409_1_alg».proof.Proof.Gen.KernelIdeal.Launch
import proofs.«405063_j37941741093409_1_alg».proof.Proof.Gen.KernelIdeal.Skeleton
import proofs.«405063_j37941741093409_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev r1_a : Rect S5000x128 := Rect.unit (s := S5000x128) ![0, 0] S5000x128.size inb_S5000x128_S5000x128_0_0
abbrev r1_n : Rect S5000x1 := Rect.unit (s := S5000x1) ![0, 0] S5000x1.size inb_S5000x1_S5000x1_0_0
abbrev r1_w : Rect S128x128 := Rect.unit (s := S128x128) ![0, 0] S128x128.size inb_S128x128_S128x128_0_0
abbrev r1_b : Rect S128 := Rect.unit (s := S128) ![0] S128.size inb_S128_S128_0

/-- The output block after the body, from the four input blocks: one store of the whole block. -/
def out1_4 (x0 : Vec F S5000x128 .f32) (x1 : Vec F S5000x1 .f32) (x2 : Vec F S128x128 .f32) (x3 : Vec F S128 .f32) : Vec F S5000x128 .f32 :=
  View.canon [⟨r1_a, k1_pay1 (View.ld x0 r1_a) (View.ld x1 r1_n) (View.ld x2 r1_w) (View.ld x3 r1_b)⟩]

/-- The proof data of pipeline 1 on core `c`: the arrays as the region finds them; after the body each input block in
    place and the output block at `out1_4` of them; the invariant the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.KernelIdeal.Hand

end
-- ==== Proof.KI.R1.lean ====
/-
  Region 1 (the graph convolution's dense half): the body obligation. At every one of the ten grid points the body reads four
  whole input blocks (5000×128 aggregated rows, their 5000×1 norms, the 128×128 weight, the 128 bias), computes one value
  from them and writes it over the whole 5000×128 output block. So: each input's staging buffer holds that input's block of
  the array as the region found it, whether or not the pipeline fetched at this point; the one store covers the output block;
  and the body's triple follows by running its six memory operations.
-/
import proofs.«405063_j37941741093409_1_alg».proof.Proof.KI.R1D

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks

An input window is never written by the body, is uncut and has no idle point. At a point where the pipeline fetches it, its
buffer holds the fetched block. At a point where it does not (the weight and the bias after the first point: their block index
never moves), the block index is the previous point's, and what the body left there is that same block. -/

theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s; rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

theorem before1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := by
    intro s; rw [after1_3]; unfold Dat.blockOf iblk1; rw [A_eq1]; try rfl
  rw [(dat1 V c).before_in_eq_fetched 3 rfl (fun _ => rfl) (fun _ _ _ => rfl) hkeep t d]
  unfold Dat.fetched Dat.blockOf iblk1; rw [A_eq1]; try rfl

/-! ## The output block is covered

The body's one store goes through the rectangle of the whole 5000×128 block, so every index of the block lies in it. -/

theorem cover1_4 (p : Vec F S5000x128 .f32) (y : S5000x128.Idx) :
    ∃ pc ∈ ([⟨r1_a, p⟩] : List (View.Piece (Elt F) S5000x128 .f32)), y ∈ pc.1.set :=
  View.cover_of_tiled [⟨r1_a, p⟩] S5000x128.size (by rfl) y

/-! ## The body's triple

On whole staging memrefs, the four inputs' at contents `x0 … x3` and the output's at anything, the body runs to a continuation
that holds the inputs' as they were and the output's at `out1_4 x0 x1 x2 x3`. The body is six memory operations in a row: the
four loads of the inputs, a load of the output buffer whose value nothing reads, and the store of the payload over the whole
output block. Since the store covers the block, what the buffer held before does not show in what it holds after. -/

set_option maxHeartbeats 1000000 in
theorem sound_kernel1 (c : Dev nD) (E : Set ℕ) (i : grid1.Coords)
    (a0 : Memref sig .tc .vmem S5000x128 .f32) (h0 : a0.IsWhole) (a1 : Memref sig .tc .vmem S5000x1 .f32) (h1 : a1.IsWhole)
    (a2 : Memref sig .tc .vmem S128x128 .f32) (h2 : a2.IsWhole) (a3 : Memref sig .tc .vmem S128 .f32) (h3 : a3.IsWhole)
    (a4 : Memref sig .tc .vmem S5000x128 .f32) (h4 : a4.IsWhole)
    (x0 : Vec F S5000x128 .f32) (x1 : Vec F S5000x1 .f32) (x2 : Vec F S128x128 .f32) (x3 : Vec F S128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out1_4 x0 x1 x2 x3)) -∗ K ⟨⟩))
      ⊢ wp frame (wpE (defs₀ (F := F)) Variants.none c none) E (cc1__conv_kernel i a0 h0 a1 h1 a2 h2 a3 h3 a4 h4) K := by
  simp only [cc1__conv_kernel_eq_skeleton]; unfold cc1__conv_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0; subst e1; subst e2; subst e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation at a point

What the body is handed at point `t`: the region's invariant, what the core owes, and each window's current staging buffer at
what it holds before the body; what it hands back: the same invariant and debt (the body touches neither), and each buffer at
what the body leaves. -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. The inputs' buffers hold their blocks, so the triple above applies with the blocks for `x0 … x3`;
    the invariant and the debt do not depend on the point and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation: the five windows' buffers one by one, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2D.lean ====
/-
  Region 2 (the per-graph readout fused with the classifier), the objects its frame and its value are stated over: a window's
  block at a grid point; the 128×128 accumulator the kernel keeps between grid points — zeroed and then increased at the first
  point, increased at every later one, by the point's one-hot matrix (transposed) times the point's 5000 rows —; and what the
  last point stores into the output block: the accumulator times the classifier's weights, plus its bias.
-/
import proofs.«405063_j37941741093409_1_alg».proof.Proof.Gen.KernelIdeal.Launch
import proofs.«405063_j37941741093409_1_alg».proof.Proof.Gen.KernelIdeal.Skeleton
import proofs.«405063_j37941741093409_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: the first point adds its term to the zero it has just stored, every
    later point to what the point before left. -/
def acc2 (c : Dev nD) : (n : ℕ) → n < cfg2.N → Vec F S128x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (h : 0 < cfg2.N) :
    acc2 V c 0 h = k2_pay2 (iblk2 V c 0 ⟨0, h⟩) (iblk2 V c 1 ⟨0, h⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- What the body at point `t` would store into the output block (it does so at the last point only): the classifier
    applied to the accumulator the point leaves. -/
def fin2 (c : Dev nD) (t : Fin cfg2.N) : Vec F S128x2 .f32 :=
  k2_pay3 (acc2 V c t.val t.isLt) (iblk2 V c 2 t) (iblk2 V c 3 t)

end Cert.KernelIdeal.Hand

end
-- ==== Proof.KI.R2.lean ====
/-
  Region 2 (the per-graph readout fused with the classifier): the pipeline's proof data and the body's half of the frame.
  The body keeps a 128×128 accumulator in a scratch buffer from one grid point to the next: the first point zeroes it
  and adds its term, every later point adds its term to what the point before left, and only the last point reads it
  out, through the classifier, into the output block. So the invariant between points names the scratch's contents,
  and the output window is idle everywhere but at the last point.
-/
import proofs.«405063_j37941741093409_1_alg».proof.Proof.KI.R2D
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant between points

Before the first point the region has what every region of its class has: each scoped buffer that is no staging
buffer at some contents, and the generator register at some state. After point `n` the scratch holds the accumulator
that point left; the other scoped buffers and the register are still at anything. -/

/-- The invariant before position `n` of the grid. -/
def Phi2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut spec2 c [cc2_scratch0] ∗ (∃ r, prngReg c r))

theorem Phi2_zero (c : Dev nD) (h : 0 ≤ cfg2.N) : Phi2 V c 0 h = Pipeline.ΦA spec2 c := rfl

theorem Phi2_succ (c : Dev nD) (n : ℕ) (hn : n + 1 ≤ cfg2.N) :
    Phi2 V c (n + 1) hn = iprop(owns (c : Thread nD τ) (Memref.whole cc2_scratch0) fullShare (acc2 V c n hn)
      ∗ Pipeline.scopedRestBut spec2 c [cc2_scratch0] ∗ (∃ r, prngReg c r)) := rfl

/-! ## The proof data -/

/-- The proof data of pipeline 2 on core `c`: the arrays as the region finds them; after the body each input block in
    place and the output block at the classifier of the accumulator so far (read at the last point only); the
    invariant `Phi2`; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => fin2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = fin2 V c t := by dsimp only [dat2]

/-! ## What the body finds in the input windows

Each of the four inputs is an uncut window that is never idle and whose block the body leaves in place, so its current
staging buffer holds the block of the point, fetched there or kept since the last fetch. -/

/-- The point's 5000 rows (of 128) are in window 0's buffer. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The point's 5000 graph numbers are in window 1's buffer. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The classifier's weights (128 × 2), moved once, are in window 2's buffer at every point. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- The classifier's bias (1 × 2), moved once, is in window 3's buffer at every point. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body's two conditions over the grid -/

/-- Both offsets of a whole-block access are zero. -/
theorem zeros2 : (![0, 0] : Fin 2 → ℕ) = fun _ => 0 := by
  funext a; match a with | ⟨0, _⟩ => rfl | ⟨1, _⟩ => rfl

/-- The condition of the body's first conditional at coordinates `i`, as the kernel computes it: the grid coordinate
    compared with 0, widened, compared with 0 again. -/
abbrev isFirst2 (i : grid2.Coords) : Prop :=
  Scalar.cmpi .ne (Scalar.extui (Scalar.cmpi .eq (BitVec.ofNat 32 (i 0).val) 0#32) : BitVec 32) 0#32 = 1#1

/-- It holds at point 0 and nowhere else. -/
theorem first2_iff : ∀ t : Fin cfg2.N, isFirst2 (grid2.coords t) ↔ t.val = 0 :=
  (by decide +kernel : ∀ t : Fin grid2.N, isFirst2 (grid2.coords t) ↔ t.val = 0)

/-- The second conditional's condition holds at point 9 and nowhere else. -/
theorem last2_iff : ∀ t : Fin cfg2.N, k2_cond2 (grid2.coords t) = 1#1 ↔ t.val = 9 :=
  (by decide +kernel : ∀ t : Fin grid2.N, k2_cond2 (grid2.coords t) = 1#1 ↔ t.val = 9)

/-! ## The body on whole buffers, one triple per control case

Every access of the body goes through the rectangle of all indices of its buffer, so a load reads the contents and a
store leaves its payload; a load of the scratch after a store to it reads that store's payload. -/

/-- One whole-block store covers the accumulator's shape. -/
theorem cover2_s (p : Vec F S128x128 .f32) (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L), y ∈ pc.1.set :=
  ⟨_, List.mem_cons_self, View.mem_set_unit_zero zeros2 inb_S128x128_S128x128_0_0 y⟩

/-- One whole-block store covers the output block's shape. -/
theorem cover2_o (p : Vec F S128x2 .f32) (y : S128x2.Idx) :
    ∃ pc ∈ ([⟨Rect.unit (s := S128x2) ![0, 0] S128x2.size inb_S128x2_S128x2_0_0, p⟩] : List (View.Piece (Elt F) S128x2 .f32)), y ∈ pc.1.set :=
  ⟨_, List.mem_singleton_self _, View.mem_set_unit_zero zeros2 inb_S128x2_S128x2_0_0 y⟩

set_option maxHeartbeats 1000000 in
/-- A point that is neither the first nor the last: the scratch, found at `s`, is left at `s` plus the point's term;
    the rows and the graph numbers stay; nothing else is touched. -/
theorem sound_kernel2_mid (c : Dev nD) (E : Set ℕ) (i : grid2.Coords) (hc1 : ¬ isFirst2 i) (hc2 : ¬ k2_cond2 i = 1#1)
    (a0 : Memref sig .tc .vmem S5000x128 .f32) (h0 : a0.IsWhole) (a1 : Memref sig .tc .vmem S5000x1 .i32) (h1 : a1.IsWhole)
    (a2 : Memref sig .tc .vmem S128x2 .f32) (h2 : a2.IsWhole) (a3 : Memref sig .tc .vmem S1x2 .f32) (h3 : a3.IsWhole)
    (a4 : Memref sig .tc .vmem S128x2 .f32) (h4 : a4.IsWhole) (a6 : Memref sig .tc .vmem S128x128 .f32) (h6 : a6.IsWhole)
    (x0 : Vec F S5000x128 .f32) (x1 : Vec F S5000x1 .i32) (s : Vec F S128x128 .f32)
    (K : PUnit → sProp 𝕄) :
    iprop(owns (c : Thread nD τ) a0 fullShare x0 ∗ owns (c : Thread nD τ) a1 fullShare x1
        ∗ owns (c : Thread nD τ) a6 fullShare s
        ∗ (iprop(owns (c : Thread nD τ) a0 fullShare x0 ∗ owns (c : Thread nD τ) a1 fullShare x1
            ∗ owns (c : Thread nD τ) a6 fullShare (k2_pay2 x0 x1 s)) -∗ K ⟨⟩))
      ⊢ wp frame (wpE (defs₀ (F := F)) Variants.none c none) E (cc2__readout_cls_kernel i a0 h0 a1 h1 a2 h2 a3 h3 a4 h4 a6 h6) K := by
  simp only [cc2__readout_cls_kernel_eq_skeleton]; unfold cc2__readout_cls_kernel_skel
  unfold owns
  iintro ⟨⟨%f0, %hf0, H0⟩, ⟨%f1, %hf1, H1⟩, ⟨%f6, %hf6, H6⟩, Hk⟩
  subst hf0; subst hf1; subst hf6
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (cover2_s _ _), View.canon_unit_zero zeros2]
  simp only [View.readAt_eq_ld, View.ld_unit_zero (S := S5000x128) zeros2, View.ld_unit_zero (S := S5000x1) zeros2,
    View.ld_unit_zero (S := S128x128) zeros2]

set_option maxHeartbeats 1000000 in
/-- The first point: the scratch, found at anything, is zeroed and then given the point's term. -/
theorem sound_kernel2_first (c : Dev nD) (E : Set ℕ) (i : grid2.Coords) (hc1 : isFirst2 i) (hc2 : ¬ k2_cond2 i = 1#1)
    (a0 : Memref sig .tc .vmem S5000x128 .f32) (h0 : a0.IsWhole) (a1 : Memref sig .tc .vmem S5000x1 .i32) (h1 : a1.IsWhole)
    (a2 : Memref sig .tc .vmem S128x2 .f32) (h2 : a2.IsWhole) (a3 : Memref sig .tc .vmem S1x2 .f32) (h3 : a3.IsWhole)
    (a4 : Memref sig .tc .vmem S128x2 .f32) (h4 : a4.IsWhole) (a6 : Memref sig .tc .vmem S128x128 .f32) (h6 : a6.IsWhole)
    (x0 : Vec F S5000x128 .f32) (x1 : Vec F S5000x1 .i32)
    (K : PUnit → sProp 𝕄) :
    iprop(owns (c : Thread nD τ) a0 fullShare x0 ∗ owns (c : Thread nD τ) a1 fullShare x1
        ∗ (∃ d, owns (c : Thread nD τ) a6 fullShare d)
        ∗ (iprop(owns (c : Thread nD τ) a0 fullShare x0 ∗ owns (c : Thread nD τ) a1 fullShare x1
            ∗ owns (c : Thread nD τ) a6 fullShare (k2_pay2 x0 x1 (k2_pay1 (F := F)))) -∗ K ⟨⟩))
      ⊢ wp frame (wpE (defs₀ (F := F)) Variants.none c none) E (cc2__readout_cls_kernel i a0 h0 a1 h1 a2 h2 a3 h3 a4 h4 a6 h6) K := by
  simp only [cc2__readout_cls_kernel_eq_skeleton]; unfold cc2__readout_cls_kernel_skel
  unfold owns
  iintro ⟨⟨%f0, %hf0, H0⟩, ⟨%f1, %hf1, H1⟩, ⟨%d6, %f6, -, H6⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover2_s _ _), View.canon_cons_unit_zero zeros2]
  simp only [View.readAt_eq_ld, View.ld_unit_zero (S := S5000x128) zeros2, View.ld_unit_zero (S := S5000x1) zeros2,
    View.readCov_unit_zero (S := S128x128) _ zeros2]

set_option maxHeartbeats 1000000 in
/-- The last point: the scratch, found at `s`, is given the point's term; then the classifier of what it now holds is
    stored over the output block, whatever that held. -/
theorem sound_kernel2_last (c : Dev nD) (E : Set ℕ) (i : grid2.Coords) (hc1 : ¬ isFirst2 i) (hc2 : k2_cond2 i = 1#1)
    (a0 : Memref sig .tc .vmem S5000x128 .f32) (h0 : a0.IsWhole) (a1 : Memref sig .tc .vmem S5000x1 .i32) (h1 : a1.IsWhole)
    (a2 : Memref sig .tc .vmem S128x2 .f32) (h2 : a2.IsWhole) (a3 : Memref sig .tc .vmem S1x2 .f32) (h3 : a3.IsWhole)
    (a4 : Memref sig .tc .vmem S128x2 .f32) (h4 : a4.IsWhole) (a6 : Memref sig .tc .vmem S128x128 .f32) (h6 : a6.IsWhole)
    (x0 : Vec F S5000x128 .f32) (x1 : Vec F S5000x1 .i32) (x2 : Vec F S128x2 .f32) (x3 : Vec F S1x2 .f32) (s : Vec F S128x128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ owns (c : Thread nD τ) a6 fullShare s
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k2_pay3 (k2_pay2 x0 x1 s) x2 x3)
            ∗ owns (c : Thread nD τ) a6 fullShare (k2_pay2 x0 x1 s)) -∗ K ⟨⟩))
      ⊢ wp frame (wpE (defs₀ (F := F)) Variants.none c none) E (cc2__readout_cls_kernel i a0 h0 a1 h1 a2 h2 a3 h3 a4 h4 a6 h6) K := by
  simp only [cc2__readout_cls_kernel_eq_skeleton]; unfold cc2__readout_cls_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0; subst hf1; subst hf2; subst hf3; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover2_o _), View.canon_unit_zero zeros2]
    simp only [View.readAt_eq_ld, View.ld_unit_zero (S := S5000x128) zeros2, View.ld_unit_zero (S := S5000x1) zeros2,
      View.ld_unit_zero (S := S128x128) zeros2, View.ld_unit_zero (S := S128x2) zeros2, View.ld_unit_zero (S := S1x2) zeros2,
      View.readCov_unit_zero (S := S128x128) _ zeros2]
  iexists _; isplitr
  swap; · iexact H6
  ipureintro
  sl_unfold_words
  rw [View.read_writes_eq_canon _ _ _ (cover2_s _ _), View.canon_unit_zero zeros2]
  simp only [View.readAt_eq_ld, View.ld_unit_zero (S := S5000x128) zeros2, View.ld_unit_zero (S := S5000x1) zeros2,
    View.ld_unit_zero (S := S128x128) zeros2]

/-! ## The invariant, opened at the scratch -/

/-- The class's invariant with the scratch taken out of the scoped rest: the scratch at some contents, the other scoped
    buffers unopened, the generator register at some state. -/
theorem PhiA2_eq (c : Dev nD) :
    (Pipeline.ΦA spec2 c : sProp 𝕄)
      = iprop(((∃ d, owns (c : Thread nD τ) (Memref.whole cc2_scratch0) fullShare d)
          ∗ Pipeline.scopedRestBut spec2 c [cc2_scratch0]) ∗ (∃ r, prngReg c r)) := by
  unfold Pipeline.ΦA
  rw [Pipeline.scopedRest_split_of_list spec2 c [cc2_scratch0] (by decide) (by decide)]
  simp only [owns_whole]; try rfl

theorem Phi2_of_zero (c : Dev nD) (n : ℕ) (h : n ≤ cfg2.N) (hz : n = 0) : Phi2 V c n h = Pipeline.ΦA spec2 c := by
  subst hz; rfl

/-- Before a point that is not the first: the scratch at what the point before left. -/
theorem Phi2_pos (c : Dev nD) (n : ℕ) (h : n ≤ cfg2.N) (hz : n ≠ 0) :
    Phi2 V c n h = iprop(owns (c : Thread nD τ) (Memref.whole cc2_scratch0) fullShare (acc2 V c (n - 1) (by omega))
      ∗ Pipeline.scopedRestBut spec2 c [cc2_scratch0] ∗ (∃ r, prngReg c r)) := by
  cases n with
  | zero => exact absurd rfl hz
  | succ n => rfl

/-- The accumulator the first point leaves. -/
theorem acc2_first (c : Dev nD) (t : Fin cfg2.N) (hz : t.val = 0) :
    acc2 V c t.val t.isLt = k2_pay2 (iblk2 V c 0 t) (iblk2 V c 1 t) (k2_pay1 (F := F)) := by
  obtain ⟨n, hn⟩ := t
  cases n with
  | zero => rfl
  | succ n => exact absurd hz (Nat.succ_ne_zero n)

/-- The accumulator a later point leaves, from the one it found. -/
theorem acc2_later (c : Dev nD) (t : Fin cfg2.N) (hz : t.val ≠ 0) :
    acc2 V c t.val t.isLt = k2_pay2 (iblk2 V c 0 t) (iblk2 V c 1 t) (acc2 V c (t.val - 1) (by omega)) := by
  obtain ⟨n, hn⟩ := t
  cases n with
  | zero => exact absurd rfl hz
  | succ n => rfl

/-! ## The output window away from the last point -/

/-- Where the second conditional is not taken the body stores nothing into the output block, -/
theorem idle2_4 (t : Fin cfg2.N) (h : ¬ k2_cond2 (grid2.coords t) = 1#1) : cfg2.idle 4 (cfg2.grid.coords t) = true := by
  show (!(k2_cond2 (grid2.coords t) == 1#1)) = true
  simp only [Bool.not_eq_true', beq_eq_false_iff_ne, ne_eq]; exact h

/-- and the pipeline does not write the block back there. -/
theorem noflush2_4 (t : Fin cfg2.N) (h : ¬ k2_cond2 (grid2.coords t) = 1#1) : (cfg2.win 4).flush t = false := by
  have hN : t.val < 10 := lt_of_lt_of_eq t.isLt N_2
  cases hf : (cfg2.win 4).flush t with
  | false => rfl
  | true => exact absurd ((last2_iff t).mpr (by have := (flush2_4 t).mp hf; omega)) h

/-- Where it is taken the window is live. -/
theorem live2_4 (t : Fin cfg2.N) (h : k2_cond2 (grid2.coords t) = 1#1) : cfg2.idle 4 (cfg2.grid.coords t) = false := by
  show (!(k2_cond2 (grid2.coords t) == 1#1)) = false
  rw [h]; rfl

/-! ## The obligation at a point -/

/-- What the pipeline hands the body at point `t`: the invariant, the debts, and the five current staging buffers at
    what they then hold. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it takes back: the next invariant, the debts, the inputs' buffers as found, and the output's buffer as found
    or, at the last point, at the classifier's result. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ (dat2 V c).leavesExact 4 t)

set_option maxHeartbeats 2000000 in
/-- At any point the input buffers hold their blocks and the scratch holds what the invariant says, so the triple of
    the point's control case applies at those; the scratch comes back at the accumulator the point leaves, which is
    the next invariant; the other scoped buffers, the register and the debts ride through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = Phi2 V c (t.val + 1) t.isLt from rfl, Phi2_succ,
    show (dat2 V c).Φ t.castSucc = Phi2 V c t.val (Nat.le_of_lt t.isLt) from rfl,
    after2_0, after2_1, after2_2, after2_3]
  have hN : t.val < 10 := lt_of_lt_of_eq t.isLt N_2
  by_cases hz : t.val = 0
  · have hc1 : isFirst2 (grid2.coords t) := (first2_iff t).mpr hz
    have hc2 : ¬ k2_cond2 (grid2.coords t) = 1#1 := fun h => by have := (last2_iff t).mp h; omega
    rw [Dat.leavesExact_idle (dat2 V c) 4 t (idle2_4 t hc2) (noflush2_4 t hc2),
      Phi2_of_zero V c _ _ hz, PhiA2_eq, acc2_first V c t hz]
    iintro ⟨⟨⟨HS, HR⟩, Hg⟩, Ho, ⟨%d0, H0⟩, ⟨%d1, H1⟩, ⟨%d2, H2⟩, ⟨%d3, H3⟩, H4⟩
    iapply (sound_kernel2_first c Set.univ (grid2.coords t) hc1 hc2 _ _ _ _ _ _ _ _ _ _ _ _ (iblk2 V c 0 t) (iblk2 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · have hc1 : ¬ isFirst2 (grid2.coords t) := fun h => hz ((first2_iff t).mp h)
    rw [Phi2_pos V c _ _ hz, acc2_later V c t hz]
    by_cases hl : t.val = 9
    · have hc2 : k2_cond2 (grid2.coords t) = 1#1 := (last2_iff t).mpr hl
      rw [show (dat2 V c).leavesExact 4 t = owns (c : Thread nD τ) (st2_4 t) fullShare ((dat2 V c).after 4 t) from by
        unfold Dat.leavesExact; rw [live2_4 t hc2], after2_4]
      unfold fin2
      rw [acc2_later V c t hz]
      iintro ⟨⟨HS, HR, Hg⟩, Ho, ⟨%d0, H0⟩, ⟨%d1, H1⟩, ⟨%d2, H2⟩, ⟨%d3, H3⟩, ⟨%d4, H4⟩⟩
      iapply (sound_kernel2_last c Set.univ (grid2.coords t) hc1 hc2 _ _ _ _ _ _ _ _ _ _ _ _ (iblk2 V c 0 t) (iblk2 V c 1 t) (iblk2 V c 2 t) (iblk2 V c 3 t) (acc2 V c (t.val - 1) (by omega)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc2 : ¬ k2_cond2 (grid2.coords t) = 1#1 := fun h => hl ((last2_iff t).mp h)
      rw [Dat.leavesExact_idle (dat2 V c) 4 t (idle2_4 t hc2) (noflush2_4 t hc2)]
      iintro ⟨⟨HS, HR, Hg⟩, Ho, ⟨%d0, H0⟩, ⟨%d1, H1⟩, ⟨%d2, H2⟩, ⟨%d3, H3⟩, H4⟩
      iapply (sound_kernel2_mid c Set.univ (grid2.coords t) hc1 hc2 _ _ _ _ _ _ _ _ _ _ _ _ (iblk2 V c 0 t) (iblk2 V c 1 t) (acc2 V c (t.val - 1) (by omega)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4

/-- The pipeline's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero]

/-- After the last point the invariant gives the class's back: what the scratch holds is forgotten and the scratch
    goes back among the scoped buffers. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨HS, HR, Hg⟩
  isplitl [HS HR]
  · isplitl [HS]; · iexists _; iexact HS
    iexact HR
  iexact Hg

end Cert.KernelIdeal.Hand

end
-- ==== Proof.KI.Run.lean ====
/-
  The run of the whole program: @main is host operations, region 0, host operations, region 1, host operations, region 2.
  Between two items every unscoped buffer of a core is held at a known valuation: the launch memory, then each host stretch
  applied, then at a region's exit the region's arrays at what its write-backs leave and every other buffer as entered.
  From the three regions' body obligations every weakly fair execution terminates, faults nowhere, and ends with every
  unscoped buffer at the last valuation; each argument array is then read back to its launch contents (no host operation
  and no region writes one) and the result array is what region 2's write-back leaves.
-/
import proofs.«405063_j37941741093409_1_alg».proof.Proof.KI.R0
import proofs.«405063_j37941741093409_1_alg».proof.Proof.KI.R1
import proofs.«405063_j37941741093409_1_alg».proof.Proof.KI.R2
import proofs.«405063_j37941741093409_1_alg».proof.Proof.Gen.KernelIdeal.Regions
import proofs.«405063_j37941741093409_1_alg».proof.Proof.Gen.KernelIdeal.Launch
import proofs.«405063_j37941741093409_1_alg».proof.Proof.Gen.KernelIdeal.Skeleton
import proofs.«405063_j37941741093409_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents a region is entered with, as a type. -/
abbrev Entry (F : FTy → Type) : Type := (c : Dev nD) → (b : Ref sig .tc) → Buf (Elt F) ((c : Thread nD τ).loc b)

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev V1 : Entry F := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : Entry F := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : Entry F := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : Entry F := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch: region 2's entry. -/
abbrev W5 : Dev nD → Valuation τ sig (Elt F) := fun c => StableHlo.after hostOps2 (W4 m c)
abbrev V5 : Entry F := fun c b => W5 m c b
/-- At region 2's exit: the end of @main. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : Entry F := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What each item leaves unchanged, and the arguments at the end -/

/-- Host stretch 0 leaves every buffer it does not write. -/
theorem W1_keep (c : Dev nD) (b : Ref sig .tc) (h : b ∉ hostOps0_W) : W1 m c (Proc.devRef .tc b) = W0 m c (Proc.devRef .tc b) :=
  StableHlo.after_of_writes_sub hostOps0 _ hostOps0_writes h

/-- Region 0 changes no buffer but its output array: an input window's array is read, never written back, and a buffer
    that is no array of the region is not touched. -/
theorem W2_keep (c : Dev nD) (b : Ref sig .tc) (hb : b ≠ main_v16) : W2 m c (Proc.devRef .tc b) = W1 m c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => exact absurd rfl hb
    exact (W2_arr m c w).trans (((dat0 (V1 m) c).arrAt_in w hin _).trans (A_eq0 (V1 m) c w))
  · exact W2_of_ne m c b fun w e => h ⟨w, e⟩

/-- Host stretch 1 leaves every buffer it does not write. -/
theorem W3_keep (c : Dev nD) (b : Ref sig .tc) (h : b ∉ hostOps1_W) : W3 m c (Proc.devRef .tc b) = W2 m c (Proc.devRef .tc b) :=
  StableHlo.after_of_writes_sub hostOps1 _ hostOps1_writes h

/-- Region 1 changes no buffer but its output array: an input window's array is read, never written back, and a buffer
    that is no array of the region is not touched. -/
theorem W4_keep (c : Dev nD) (b : Ref sig .tc) (hb : b ≠ main_v32) : W4 m c (Proc.devRef .tc b) = W3 m c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => exact absurd rfl hb
    exact (W4_arr m c w).trans (((dat1 (V3 m) c).arrAt_in w hin _).trans (A_eq1 (V3 m) c w))
  · exact W4_of_ne m c b fun w e => h ⟨w, e⟩

/-- Host stretch 2 leaves every buffer it does not write. -/
theorem W5_keep (c : Dev nD) (b : Ref sig .tc) (h : b ∉ hostOps2_W) : W5 m c (Proc.devRef .tc b) = W4 m c (Proc.devRef .tc b) :=
  StableHlo.after_of_writes_sub hostOps2 _ hostOps2_writes h

/-- Region 2 changes no buffer but its output array: an input window's array is read, never written back, and a buffer
    that is no array of the region is not touched. -/
theorem W6_keep (c : Dev nD) (b : Ref sig .tc) (hb : b ≠ main_v35) : W6 m c (Proc.devRef .tc b) = W5 m c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => rfl
      | ⟨4, _⟩ => exact absurd rfl hb
    exact (W6_arr m c w).trans (((dat2 (V5 m) c).arrAt_in w hin _).trans (A_eq2 (V5 m) c w))
  · exact W6_of_ne m c b fun w e => h ⟨w, e⟩

/-! Each argument array reaches the end as launched. -/

theorem W6_main_arg0 (c : Dev nD) : W6 m c (Proc.devRef .tc main_arg0) = m ((c : Thread nD τ).loc main_arg0) :=
  (W6_keep m c main_arg0 (by decide)).trans <| (W5_keep m c main_arg0 (by decide)).trans <| (W4_keep m c main_arg0 (by decide)).trans <|
    (W3_keep m c main_arg0 (by decide)).trans <| (W2_keep m c main_arg0 (by decide)).trans <| (W1_keep m c main_arg0 (by decide)).trans rfl

theorem W6_main_arg1 (c : Dev nD) : W6 m c (Proc.devRef .tc main_arg1) = m ((c : Thread nD τ).loc main_arg1) :=
  (W6_keep m c main_arg1 (by decide)).trans <| (W5_keep m c main_arg1 (by decide)).trans <| (W4_keep m c main_arg1 (by decide)).trans <|
    (W3_keep m c main_arg1 (by decide)).trans <| (W2_keep m c main_arg1 (by decide)).trans <| (W1_keep m c main_arg1 (by decide)).trans rfl

theorem W6_main_arg2 (c : Dev nD) : W6 m c (Proc.devRef .tc main_arg2) = m ((c : Thread nD τ).loc main_arg2) :=
  (W6_keep m c main_arg2 (by decide)).trans <| (W5_keep m c main_arg2 (by decide)).trans <| (W4_keep m c main_arg2 (by decide)).trans <|
    (W3_keep m c main_arg2 (by decide)).trans <| (W2_keep m c main_arg2 (by decide)).trans <| (W1_keep m c main_arg2 (by decide)).trans rfl

theorem W6_main_arg3 (c : Dev nD) : W6 m c (Proc.devRef .tc main_arg3) = m ((c : Thread nD τ).loc main_arg3) :=
  (W6_keep m c main_arg3 (by decide)).trans <| (W5_keep m c main_arg3 (by decide)).trans <| (W4_keep m c main_arg3 (by decide)).trans <|
    (W3_keep m c main_arg3 (by decide)).trans <| (W2_keep m c main_arg3 (by decide)).trans <| (W1_keep m c main_arg3 (by decide)).trans rfl

theorem W6_main_arg4 (c : Dev nD) : W6 m c (Proc.devRef .tc main_arg4) = m ((c : Thread nD τ).loc main_arg4) :=
  (W6_keep m c main_arg4 (by decide)).trans <| (W5_keep m c main_arg4 (by decide)).trans <| (W4_keep m c main_arg4 (by decide)).trans <|
    (W3_keep m c main_arg4 (by decide)).trans <| (W2_keep m c main_arg4 (by decide)).trans <| (W1_keep m c main_arg4 (by decide)).trans rfl

theorem W6_main_arg5 (c : Dev nD) : W6 m c (Proc.devRef .tc main_arg5) = m ((c : Thread nD τ).loc main_arg5) :=
  (W6_keep m c main_arg5 (by decide)).trans <| (W5_keep m c main_arg5 (by decide)).trans <| (W4_keep m c main_arg5 (by decide)).trans <|
    (W3_keep m c main_arg5 (by decide)).trans <| (W2_keep m c main_arg5 (by decide)).trans <| (W1_keep m c main_arg5 (by decide)).trans rfl

theorem W6_main_arg6 (c : Dev nD) : W6 m c (Proc.devRef .tc main_arg6) = m ((c : Thread nD τ).loc main_arg6) :=
  (W6_keep m c main_arg6 (by decide)).trans <| (W5_keep m c main_arg6 (by decide)).trans <| (W4_keep m c main_arg6 (by decide)).trans <|
    (W3_keep m c main_arg6 (by decide)).trans <| (W2_keep m c main_arg6 (by decide)).trans <| (W1_keep m c main_arg6 (by decide)).trans rfl

theorem W6_main_arg7 (c : Dev nD) : W6 m c (Proc.devRef .tc main_arg7) = m ((c : Thread nD τ).loc main_arg7) :=
  (W6_keep m c main_arg7 (by decide)).trans <| (W5_keep m c main_arg7 (by decide)).trans <| (W4_keep m c main_arg7 (by decide)).trans <|
    (W3_keep m c main_arg7 (by decide)).trans <| (W2_keep m c main_arg7 (by decide)).trans <| (W1_keep m c main_arg7 (by decide)).trans rfl

theorem W6_main_arg8 (c : Dev nD) : W6 m c (Proc.devRef .tc main_arg8) = m ((c : Thread nD τ).loc main_arg8) :=
  (W6_keep m c main_arg8 (by decide)).trans <| (W5_keep m c main_arg8 (by decide)).trans <| (W4_keep m c main_arg8 (by decide)).trans <|
    (W3_keep m c main_arg8 (by decide)).trans <| (W2_keep m c main_arg8 (by decide)).trans <| (W1_keep m c main_arg8 (by decide)).trans rfl

theorem W6_main_arg9 (c : Dev nD) : W6 m c (Proc.devRef .tc main_arg9) = m ((c : Thread nD τ).loc main_arg9) :=
  (W6_keep m c main_arg9 (by decide)).trans <| (W5_keep m c main_arg9 (by decide)).trans <| (W4_keep m c main_arg9 (by decide)).trans <|
    (W3_keep m c main_arg9 (by decide)).trans <| (W2_keep m c main_arg9 (by decide)).trans <| (W1_keep m c main_arg9 (by decide)).trans rfl

/-- The result array at the end is what region 2's write-back leaves in its output window's array. -/
theorem W6_result (c : Dev nD) : W6 m c (Proc.devRef .tc main_v35) = (dat2 (V5 m) c).arrAt 4 cfg2.N :=
  W6_arr m c 4

/-! ## The proof data family and the thread state -/

/-- No pipeline has a prefetched table. -/
abbrev adm : (p : Fin 3) → (pcfgs (F := F) p).Adm := fun p => (cfgs p).toPCfg_adm
/-- Every pipeline's proof data, each at its region's entry contents: a literal case split on the pipeline's number. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev R (c : Dev nD) : sProp 𝕄 := iprop((∃ r, prngReg c r) ∗ ∃ W, owes (c : Thread nD τ) (0 : CellTallies nD τ sig Unit) W)
/-- A host stretch as a segment of the run, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last valuation, the generator register at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its arrays are
    split out of the unscoped buffers on entry and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays are
    split out of the unscoped buffers on entry and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays are
    split out of the unscoped buffers on entry and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1
          ∗ Pipeline.scopedRest spec2 c) : sProp 𝕄) ⊢ Pipeline.ΦA spec2 c := by
      unfold Pipeline.ΦA
      iintro ⟨Hp, -, Hr⟩
      isplitl [Hr]; · iexact Hr
      iexact Hp
    exact h1.trans (hin2 (V5 m) c)
  hout c := by
    rw [Pipeline.ownSems0_none]
    have h1 : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (hout2 (V5 m) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of its items. -/
theorem main_run (c : Dev nD) : main (F := F) c = Pipeline.Seg.run (segs m) := (main_chain c).trans (by chain_rfl)

variable (ρ : Dev nD → PrngReg)

set_option backward.isDefEq.respectTransparency.types false in
/-- From any memory with zero counters every weakly fair execution of @main terminates, nothing faulting, and the final
    state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c)⟩) (run_all m ρ)

/-- The run with the result named: the result array ends at what region 2's write-back leaves, the arguments as launched. -/
theorem run_value : θ_run defs (onTc (τ := τ) (main (F := F))) ⟨m, fun _ => 0, ρ⟩ (fun r => ∀ c : Dev nD,
      r.2.mem ((c.tc : Thread nD τ).loc main_v35) = (dat2 (V5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_v35 (by decide))).trans (W6_result m c),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c)⟩) (run_all m ρ)

end Cert.KernelIdeal.Hand

end
-- ==== Proof.Ref.Run.lean ====
import proofs.«405063_j37941741093409_1_alg».proof.Proof.Gen.ReferenceIdeal
import Idealize.ShloMosaic.Lib.StableHlo.Run

/-! The reference program's run.

@main of the reference is a straight line of host tensor operations with no kernel launch: two degree
counts by scatter-add and their inverse square roots, a dense layer, three rounds of
"scale rows, gather along edges, scatter-add at the targets, scale rows, dense layer, leaky rectifier",
a pooling scatter-add and a final dense layer. The leaky rectifier is an outlined function (seven
operations, the last one the select of the outlined `where`), called three times; a call runs the
callee's body on the operands, so its seven operations stand inline at the call site, over the
buffers that call names. The list below is that straight line; the run theorem says every execution
ends with each buffer at the fold of the list over the launch contents, and no operation of the list
writes an argument. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: 118 of its own and, at each of the three calls of the leaky rectifier,
    the callee's seven over that call's buffers. -/
abbrev ops : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg2 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v3 main_v7 main_v8 (maximumf : (⟨S50000, .f32⟩ : BufTy).Contents (Elt F) → (⟨S50000, .f32⟩ : BufTy).Contents (Elt F) → (⟨S50000, .f32⟩ : BufTy).Contents (Elt F)),
    StableHlo.nullary main_cst_3 (constant S_ .f32 0xBF000000#32),
    StableHlo.unary main_cst_3 main_v9 (broadcastInDim S50000 ![] bcast_S_S50000 : (⟨S_, .f32⟩ : BufTy).Contents (Elt F) → (⟨S50000, .f32⟩ : BufTy).Contents (Elt F)),
    StableHlo.binary main_v8 main_v9 main_v10 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x3F800000#32),
    StableHlo.unary main_cst_4 main_v11 (broadcastInDim S50000 ![] bcast_S_S50000 : (⟨S_, .f32⟩ : BufTy).Contents (Elt F) → (⟨S50000, .f32⟩ : BufTy).Contents (Elt F)),
    StableHlo.binary main_v6 main_v11 main_v12 (maximumf : (⟨S50000, .f32⟩ : BufTy).Contents (Elt F) → (⟨S50000, .f32⟩ : BufTy).Contents (Elt F) → (⟨S50000, .f32⟩ : BufTy).Contents (Elt F)),
    StableHlo.nullary main_cst_5 (constant S_ .f32 0xBF000000#32),
    StableHlo.unary main_cst_5 main_v13 (broadcastInDim S50000 ![] bcast_S_S50000 : (⟨S_, .f32⟩ : BufTy).Contents (Elt F) → (⟨S50000, .f32⟩ : BufTy).Contents (Elt F)),
    StableHlo.binary main_v12 main_v13 main_v14 (Host.powf : (⟨S50000, .f32⟩ : BufTy).Contents (Elt F) → (⟨S50000, .f32⟩ : BufTy).Contents (Elt F) → (⟨S50000, .f32⟩ : BufTy).Contents (Elt F)),
    StableHlo.binary main_arg0 main_arg4 main_v15 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg5 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg6 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.unary main_arg7 main_v21 ((extractStridedSlice S1x128 ![0, 0] · slices_S3x128_S1x128_0_0) : (⟨S3x128, .f32⟩ : BufTy).Contents (Elt F) → (⟨S1x128, .f32⟩ : BufTy).Contents (Elt F)),
    StableHlo.reshape main_v21 main_v22 rfl shapeCasts_S1x128_S128,
    StableHlo.unary main_v10 main_v23 (broadcastInDim S50000x1 ![0] bcast_S50000_S50000x1_0 : (⟨S50000, .f32⟩ : BufTy).Contents (Elt F) → (⟨S50000x1, .f32⟩ : BufTy).Contents (Elt F)),
    StableHlo.unary main_v23 main_v24 (broadcastInDim S50000x128 ![0, 1] bcast_S50000x1_S50000x128_0_1 : (⟨S50000x1, .f32⟩ : BufTy).Contents (Elt F) → (⟨S50000x128, .f32⟩ : BufTy).Contents (Elt F)),
    StableHlo.binary main_v18 main_v24 main_v25 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v26 (broadcastInDim S800000 ![] bcast_S_S800000 : (⟨S_, .i32⟩ : BufTy).Contents (Elt F) → (⟨S800000, .i32⟩ : BufTy).Contents (Elt F)),
    StableHlo.binary main_arg1 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v28 (broadcastInDim S800000 ![] bcast_S_S800000 : (⟨S_, .i32⟩ : BufTy).Contents (Elt F) → (⟨S800000, .i32⟩ : BufTy).Contents (Elt F)),
    StableHlo.binary main_arg1 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_arg1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v25 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v33 (broadcastInDim S50000x128 ![] bcast_S_S50000x128 : (⟨S_, .f32⟩ : BufTy).Contents (Elt F) → (⟨S50000x128, .f32⟩ : BufTy).Contents (Elt F)),
    StableHlo.unary main_arg2 main_v34 (broadcastInDim S800000x1 ![0] bcast_S800000_S800000x1_0 : (⟨S800000, .i32⟩ : BufTy).Contents (Elt F) → (⟨S800000x1, .i32⟩ : BufTy).Contents (Elt F)),
    StableHlo.ternary main_v33 main_v34 main_v32 main_v35 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v36 (broadcastInDim S50000x1 ![0] bcast_S50000_S50000x1_0 : (⟨S50000, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v35 main_v37 main_v38 (mulf : (⟨S50000x128, .f32⟩ : BufTy).Contents (Elt F) → (⟨S50000x128, .f32⟩ : BufTy).Contents (Elt F) → (⟨S50000x128, .f32⟩ : BufTy).Contents (Elt F)),
    StableHlo.binary main_v38 main_v20 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v22 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3C23D70A#32),
    TRef.nullary main_call0.cst (constant S_ .f32 0x00000000#32),
    TRef.unary main_call0.cst main_call0.v0 (broadcastInDim S50000x128 ![] bcast_S_S50000x128),
    TRef.binary (.of main_v42) main_call0.v0 main_call0.v1 (cmpf .oge),
    TRef.unary (.of main_cst_8) main_call0.v2 id,
    TRef.unary main_call0.v2 main_call0.v3 (broadcastInDim S50000x128 ![] bcast_S_S50000x128),
    TRef.binary main_call0.v3 (.of main_v42) main_call0.v4 mulf,
    TRef.ternary main_call0.v1 (.of main_v42) main_call0.v4 main_call0.call0.v0 select,
    StableHlo.unary main_arg6 main_v44 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v44 main_v45 rfl shapeCasts_S1x128x128_S128x128,
    StableHlo.unary main_arg7 main_v46 ((extractStridedSlice S1x128 ![1, 0] · slices_S3x128_S1x128_1_0) : (⟨S3x128, .f32⟩ : BufTy).Contents (Elt F) → (⟨S1x128, .f32⟩ : BufTy).Contents (Elt F)),
    StableHlo.reshape main_v46 main_v47 rfl shapeCasts_S1x128_S128,
    StableHlo.unary main_v10 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x128 ![0, 1] bcast_S50000x1_S50000x128_0_1 : (⟨S50000x1, .f32⟩ : BufTy).Contents (Elt F) → (⟨S50000x128, .f32⟩ : BufTy).Contents (Elt F)),
    StableHlo.binary main_v18 main_v49 main_v50 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v51 (broadcastInDim S800000 ![] bcast_S_S800000 : (⟨S_, .i32⟩ : BufTy).Contents (Elt F) → (⟨S800000, .i32⟩ : BufTy).Contents (Elt F)),
    StableHlo.binary main_arg1 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v53 (broadcastInDim S800000 ![] bcast_S_S800000 : (⟨S_, .i32⟩ : BufTy).Contents (Elt F) → (⟨S800000, .i32⟩ : BufTy).Contents (Elt F)),
    StableHlo.binary main_arg1 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_arg1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v50 main_v56 main_v57 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v58 (broadcastInDim S50000x128 ![] bcast_S_S50000x128 : (⟨S_, .f32⟩ : BufTy).Contents (Elt F) → (⟨S50000x128, .f32⟩ : BufTy).Contents (Elt F)),
    StableHlo.unary main_arg2 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v62 main_v63 (mulf : (⟨S50000x128, .f32⟩ : BufTy).Contents (Elt F) → (⟨S50000x128, .f32⟩ : BufTy).Contents (Elt F) → (⟨S50000x128, .f32⟩ : BufTy).Contents (Elt F)),
    StableHlo.binary main_v63 main_v45 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v47 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3C23D70A#32),
    TRef.nullary main_call1.cst (constant S_ .f32 0x00000000#32),
    TRef.unary main_call1.cst main_call1.v0 (broadcastInDim S50000x128 ![] bcast_S_S50000x128),
    TRef.binary (.of main_v67) main_call1.v0 main_call1.v1 (cmpf .oge),
    TRef.unary (.of main_cst_12) main_call1.v2 id,
    TRef.unary main_call1.v2 main_call1.v3 (broadcastInDim S50000x128 ![] bcast_S_S50000x128),
    TRef.binary main_call1.v3 (.of main_v67) main_call1.v4 mulf,
    TRef.ternary main_call1.v1 (.of main_v67) main_call1.v4 main_call1.call0.v0 select,
    StableHlo.unary main_arg6 main_v69 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v69 main_v70 rfl shapeCasts_S1x128x128_S128x128,
    StableHlo.unary main_arg7 main_v71 ((extractStridedSlice S1x128 ![2, 0] · slices_S3x128_S1x128_2_0) : (⟨S3x128, .f32⟩ : BufTy).Contents (Elt F) → (⟨S1x128, .f32⟩ : BufTy).Contents (Elt F)),
    StableHlo.reshape main_v71 main_v72 rfl shapeCasts_S1x128_S128,
    StableHlo.unary main_v10 main_v73 (broadcastInDim S50000x1 ![0] bcast_S50000_S50000x1_0 : (⟨S50000, .f32⟩ : BufTy).Contents (Elt F) → (⟨S50000x1, .f32⟩ : BufTy).Contents (Elt F)),
    StableHlo.unary main_v73 main_v74 (broadcastInDim S50000x128 ![0, 1] bcast_S50000x1_S50000x128_0_1 : (⟨S50000x1, .f32⟩ : BufTy).Contents (Elt F) → (⟨S50000x128, .f32⟩ : BufTy).Contents (Elt F)),
    StableHlo.binary main_v18 main_v74 main_v75 (mulf : (⟨S50000x128, .f32⟩ : BufTy).Contents (Elt F) → (⟨S50000x128, .f32⟩ : BufTy).Contents (Elt F) → (⟨S50000x128, .f32⟩ : BufTy).Contents (Elt F)),
    StableHlo.nullary main_c_13 (constantI S_ 32 0#32),
    StableHlo.unary main_c_13 main_v76 (broadcastInDim S800000 ![] bcast_S_S800000 : (⟨S_, .i32⟩ : BufTy).Contents (Elt F) → (⟨S800000, .i32⟩ : BufTy).Contents (Elt F)),
    StableHlo.binary main_arg1 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v78 (broadcastInDim S800000 ![] bcast_S_S800000 : (⟨S_, .i32⟩ : BufTy).Contents (Elt F) → (⟨S800000, .i32⟩ : BufTy).Contents (Elt F)),
    StableHlo.binary main_arg1 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_arg1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v75 main_v81 main_v82 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v83 (broadcastInDim S50000x128 ![] bcast_S_S50000x128 : (⟨S_, .f32⟩ : BufTy).Contents (Elt F) → (⟨S50000x128, .f32⟩ : BufTy).Contents (Elt F)),
    StableHlo.unary main_arg2 main_v84 (broadcastInDim S800000x1 ![0] bcast_S800000_S800000x1_0 : (⟨S800000, .i32⟩ : BufTy).Contents (Elt F) → (⟨S800000x1, .i32⟩ : BufTy).Contents (Elt F)),
    StableHlo.ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v86 (broadcastInDim S50000x1 ![0] bcast_S50000_S50000x1_0 : (⟨S50000, .f32⟩ : BufTy).Contents (Elt F) → (⟨S50000x1, .f32⟩ : BufTy).Contents (Elt F)),
    StableHlo.unary main_v86 main_v87 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v87 main_v88 (mulf : (⟨S50000x128, .f32⟩ : BufTy).Contents (Elt F) → (⟨S50000x128, .f32⟩ : BufTy).Contents (Elt F) → (⟨S50000x128, .f32⟩ : BufTy).Contents (Elt F)),
    StableHlo.binary main_v88 main_v70 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v72 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3C23D70A#32),
    TRef.nullary main_call2.cst (constant S_ .f32 0x00000000#32),
    TRef.unary main_call2.cst main_call2.v0 (broadcastInDim S50000x128 ![] bcast_S_S50000x128),
    TRef.binary (.of main_v92) main_call2.v0 main_call2.v1 (cmpf .oge),
    TRef.unary (.of main_cst_16) main_call2.v2 id,
    TRef.unary main_call2.v2 main_call2.v3 (broadcastInDim S50000x128 ![] bcast_S_S50000x128),
    TRef.binary main_call2.v3 (.of main_v92) main_call2.v4 mulf,
    TRef.ternary main_call2.v1 (.of main_v92) main_call2.v4 main_call2.call0.v0 select,
    StableHlo.nullary main_cst_17 (constant S_ .f32 0x00000000#32),
    StableHlo.unary main_cst_17 main_v94 (broadcastInDim S128x128 ![] bcast_S_S128x128 : (⟨S_, .f32⟩ : BufTy).Contents (Elt F) → (⟨S128x128, .f32⟩ : BufTy).Contents (Elt F)),
    StableHlo.unary main_arg3 main_v95 (broadcastInDim S50000x1 ![0] bcast_S50000_S50000x1_0 : (⟨S50000, .i32⟩ : BufTy).Contents (Elt F) → (⟨S50000x1, .i32⟩ : BufTy).Contents (Elt F)),
    StableHlo.ternary main_v94 main_v95 main_v93 main_v96 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.binary main_v96 main_arg8 main_v97 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg9 main_v98 (broadcastInDim S1x2 ![1] bcast_S2_S1x2_1 : (⟨S2, .f32⟩ : BufTy).Contents (Elt F) → (⟨S1x2, .f32⟩ : BufTy).Contents (Elt F)),
    StableHlo.unary main_v98 main_v99 (broadcastInDim S128x2 ![0, 1] bcast_S1x2_S128x2_0_1 : (⟨S1x2, .f32⟩ : BufTy).Contents (Elt F) → (⟨S128x2, .f32⟩ : BufTy).Contents (Elt F)),
    StableHlo.binary main_v97 main_v99 main_v100 (addf : (⟨S128x2, .f32⟩ : BufTy).Contents (Elt F) → (⟨S128x2, .f32⟩ : BufTy).Contents (Elt F) → (⟨S128x2, .f32⟩ : BufTy).Contents (Elt F)) ]

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., binary_bufs_sub .., unary_bufs_sub .., unary_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
/-- @main is that straight line: the three windows in order, the callee's definitions unfolded at the calls;
    both sides are one chain of steps once sequencing is re-associated. -/
theorem main_eq (c : Dev nD) : main (F := F) c = seq ops := by
  simp only [main, main_part0, main_part1, main_part2, fn_leaky_relu.body, fn_where.body, seq, bind_assoc, pure_bind]

/-- On every device, for any float values, from any memory with zero counters: every weakly fair execution of
    @main terminates with each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ

/-- The buffers the operations write, in order: each operation writes exactly its result buffer. -/
abbrev ops_W : List (Ref sig .tc) :=
  [main_cst, main_v0, main_cst_0, main_v1, main_v2, main_v3, main_cst_1, main_v4, main_v5, main_v6, main_cst_2, main_v7, main_v8, main_cst_3, main_v9, main_v10, main_cst_4, main_v11, main_v12, main_cst_5, main_v13, main_v14, main_v15, main_v16, main_v17, main_v18, main_v19, main_v20, main_v21, main_v22, main_v23, main_v24, main_v25, main_c, main_v26, main_v27, main_c_6, main_v28, main_v29, main_v30, main_v31, main_v32, main_cst_7, main_v33, main_v34, main_v35, main_v36, main_v37, main_v38, main_v39, main_v40, main_v41, main_v42, main_cst_8, main_call0_cst, main_call0_v0, main_call0_v1, main_call0_v2, main_call0_v3, main_call0_v4, main_v43, main_v44, main_v45, main_v46, main_v47, main_v48, main_v49, main_v50, main_c_9, main_v51, main_v52, main_c_10, main_v53, main_v54, main_v55, main_v56, main_v57, main_cst_11, main_v58, main_v59, main_v60, main_v61, main_v62, main_v63, main_v64, main_v65, main_v66, main_v67, main_cst_12, main_call1_cst, main_call1_v0, main_call1_v1, main_call1_v2, main_call1_v3, main_call1_v4, main_v68, main_v69, main_v70, main_v71, main_v72, main_v73, main_v74, main_v75, main_c_13, main_v76, main_v77, main_c_14, main_v78, main_v79, main_v80, main_v81, main_v82, main_cst_15, main_v83, main_v84, main_v85, main_v86, main_v87, main_v88, main_v89, main_v90, main_v91, main_v92, main_cst_16, main_call2_cst, main_call2_v0, main_call2_v1, main_call2_v2, main_call2_v3, main_call2_v4, main_v93, main_cst_17, main_v94, main_v95, main_v96, main_v97, main_v98, main_v99, main_v100]

/-- A one-buffer write set lies in a list's buffers when the reference is in the list. -/
private theorem single_sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation's write set is its result buffer, and that buffer is in the list above. -/
theorem ops_writes : (ops : List (HloOp τ sig (Elt F))).Forall fun op => op.writes ⊆ (ops_W.map (Proc.devRef (τ := τ) .tc)).toFinset :=
  ⟨single_sub_of_mem (y := main_cst) (by decide),
   single_sub_of_mem (y := main_v0) (by decide),
   single_sub_of_mem (y := main_cst_0) (by decide),
   single_sub_of_mem (y := main_v1) (by decide),
   single_sub_of_mem (y := main_v2) (by decide),
   single_sub_of_mem (y := main_v3) (by decide),
   single_sub_of_mem (y := main_cst_1) (by decide),
   single_sub_of_mem (y := main_v4) (by decide),
   single_sub_of_mem (y := main_v5) (by decide),
   single_sub_of_mem (y := main_v6) (by decide),
   single_sub_of_mem (y := main_cst_2) (by decide),
   single_sub_of_mem (y := main_v7) (by decide),
   single_sub_of_mem (y := main_v8) (by decide),
   single_sub_of_mem (y := main_cst_3) (by decide),
   single_sub_of_mem (y := main_v9) (by decide),
   single_sub_of_mem (y := main_v10) (by decide),
   single_sub_of_mem (y := main_cst_4) (by decide),
   single_sub_of_mem (y := main_v11) (by decide),
   single_sub_of_mem (y := main_v12) (by decide),
   single_sub_of_mem (y := main_cst_5) (by decide),
   single_sub_of_mem (y := main_v13) (by decide),
   single_sub_of_mem (y := main_v14) (by decide),
   single_sub_of_mem (y := main_v15) (by decide),
   single_sub_of_mem (y := main_v16) (by decide),
   single_sub_of_mem (y := main_v17) (by decide),
   single_sub_of_mem (y := main_v18) (by decide),
   single_sub_of_mem (y := main_v19) (by decide),
   single_sub_of_mem (y := main_v20) (by decide),
   single_sub_of_mem (y := main_v21) (by decide),
   single_sub_of_mem (y := main_v22) (by decide),
   single_sub_of_mem (y := main_v23) (by decide),
   single_sub_of_mem (y := main_v24) (by decide),
   single_sub_of_mem (y := main_v25) (by decide),
   single_sub_of_mem (y := main_c) (by decide),
   single_sub_of_mem (y := main_v26) (by decide),
   single_sub_of_mem (y := main_v27) (by decide),
   single_sub_of_mem (y := main_c_6) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_cst_7) (by decide),
   single_sub_of_mem (y := main_v33) (by decide),
   single_sub_of_mem (y := main_v34) (by decide),
   single_sub_of_mem (y := main_v35) (by decide),
   single_sub_of_mem (y := main_v36) (by decide),
   single_sub_of_mem (y := main_v37) (by decide),
   single_sub_of_mem (y := main_v38) (by decide),
   single_sub_of_mem (y := main_v39) (by decide),
   single_sub_of_mem (y := main_v40) (by decide),
   single_sub_of_mem (y := main_v41) (by decide),
   single_sub_of_mem (y := main_v42) (by decide),
   single_sub_of_mem (y := main_cst_8) (by decide),
   single_sub_of_mem (y := main_call0_cst) (by decide),
   single_sub_of_mem (y := main_call0_v0) (by decide),
   single_sub_of_mem (y := main_call0_v1) (by decide),
   single_sub_of_mem (y := main_call0_v2) (by decide),
   single_sub_of_mem (y := main_call0_v3) (by decide),
   single_sub_of_mem (y := main_call0_v4) (by decide),
   single_sub_of_mem (y := main_v43) (by decide),
   single_sub_of_mem (y := main_v44) (by decide),
   single_sub_of_mem (y := main_v45) (by decide),
   single_sub_of_mem (y := main_v46) (by decide),
   single_sub_of_mem (y := main_v47) (by decide),
   single_sub_of_mem (y := main_v48) (by decide),
   single_sub_of_mem (y := main_v49) (by decide),
   single_sub_of_mem (y := main_v50) (by decide),
   single_sub_of_mem (y := main_c_9) (by decide),
   single_sub_of_mem (y := main_v51) (by decide),
   single_sub_of_mem (y := main_v52) (by decide),
   single_sub_of_mem (y := main_c_10) (by decide),
   single_sub_of_mem (y := main_v53) (by decide),
   single_sub_of_mem (y := main_v54) (by decide),
   single_sub_of_mem (y := main_v55) (by decide),
   single_sub_of_mem (y := main_v56) (by decide),
   single_sub_of_mem (y := main_v57) (by decide),
   single_sub_of_mem (y := main_cst_11) (by decide),
   single_sub_of_mem (y := main_v58) (by decide),
   single_sub_of_mem (y := main_v59) (by decide),
   single_sub_of_mem (y := main_v60) (by decide),
   single_sub_of_mem (y := main_v61) (by decide),
   single_sub_of_mem (y := main_v62) (by decide),
   single_sub_of_mem (y := main_v63) (by decide),
   single_sub_of_mem (y := main_v64) (by decide),
   single_sub_of_mem (y := main_v65) (by decide),
   single_sub_of_mem (y := main_v66) (by decide),
   single_sub_of_mem (y := main_v67) (by decide),
   single_sub_of_mem (y := main_cst_12) (by decide),
   single_sub_of_mem (y := main_call1_cst) (by decide),
   single_sub_of_mem (y := main_call1_v0) (by decide),
   single_sub_of_mem (y := main_call1_v1) (by decide),
   single_sub_of_mem (y := main_call1_v2) (by decide),
   single_sub_of_mem (y := main_call1_v3) (by decide),
   single_sub_of_mem (y := main_call1_v4) (by decide),
   single_sub_of_mem (y := main_v68) (by decide),
   single_sub_of_mem (y := main_v69) (by decide),
   single_sub_of_mem (y := main_v70) (by decide),
   single_sub_of_mem (y := main_v71) (by decide),
   single_sub_of_mem (y := main_v72) (by decide),
   single_sub_of_mem (y := main_v73) (by decide),
   single_sub_of_mem (y := main_v74) (by decide),
   single_sub_of_mem (y := main_v75) (by decide),
   single_sub_of_mem (y := main_c_13) (by decide),
   single_sub_of_mem (y := main_v76) (by decide),
   single_sub_of_mem (y := main_v77) (by decide),
   single_sub_of_mem (y := main_c_14) (by decide),
   single_sub_of_mem (y := main_v78) (by decide),
   single_sub_of_mem (y := main_v79) (by decide),
   single_sub_of_mem (y := main_v80) (by decide),
   single_sub_of_mem (y := main_v81) (by decide),
   single_sub_of_mem (y := main_v82) (by decide),
   single_sub_of_mem (y := main_cst_15) (by decide),
   single_sub_of_mem (y := main_v83) (by decide),
   single_sub_of_mem (y := main_v84) (by decide),
   single_sub_of_mem (y := main_v85) (by decide),
   single_sub_of_mem (y := main_v86) (by decide),
   single_sub_of_mem (y := main_v87) (by decide),
   single_sub_of_mem (y := main_v88) (by decide),
   single_sub_of_mem (y := main_v89) (by decide),
   single_sub_of_mem (y := main_v90) (by decide),
   single_sub_of_mem (y := main_v91) (by decide),
   single_sub_of_mem (y := main_v92) (by decide),
   single_sub_of_mem (y := main_cst_16) (by decide),
   single_sub_of_mem (y := main_call2_cst) (by decide),
   single_sub_of_mem (y := main_call2_v0) (by decide),
   single_sub_of_mem (y := main_call2_v1) (by decide),
   single_sub_of_mem (y := main_call2_v2) (by decide),
   single_sub_of_mem (y := main_call2_v3) (by decide),
   single_sub_of_mem (y := main_call2_v4) (by decide),
   single_sub_of_mem (y := main_v93) (by decide),
   single_sub_of_mem (y := main_cst_17) (by decide),
   single_sub_of_mem (y := main_v94) (by decide),
   single_sub_of_mem (y := main_v95) (by decide),
   single_sub_of_mem (y := main_v96) (by decide),
   single_sub_of_mem (y := main_v97) (by decide),
   single_sub_of_mem (y := main_v98) (by decide),
   single_sub_of_mem (y := main_v99) (by decide),
   single_sub_of_mem (y := main_v100) (by decide)⟩

/-- No operation writes an argument: none of the ten argument buffers is in the list of written buffers,
    so each keeps its contents through the whole line. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9) :=
  ⟨after_of_writes_sub ops V ops_writes (by decide),
   after_of_writes_sub ops V ops_writes (by decide),
   after_of_writes_sub ops V ops_writes (by decide),
   after_of_writes_sub ops V ops_writes (by decide),
   after_of_writes_sub ops V ops_writes (by decide),
   after_of_writes_sub ops V ops_writes (by decide),
   after_of_writes_sub ops V ops_writes (by decide),
   after_of_writes_sub ops V ops_writes (by decide),
   after_of_writes_sub ops V ops_writes (by decide),
   after_of_writes_sub ops V ops_writes (by decide)⟩

end Cert.ReferenceIdeal.HandRun

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KI.HostVals.lean ====
/-
  What the three host stretches of the kernel program leave in the buffers that the regions and the result read,
  written as values over the contents `W` the stretch starts from.

  Stretch 0 builds the two degree normalisations: the edge list's endpoints scattered as ones into a zero vector of
  50000 nodes (the out-degree from the sources, the in-degree from the destinations), clamped below by one and raised
  to the power −1/2; the source-side vector is also laid out as a column. Stretch 1 gathers the rows of what region 0
  produced along the edges' sources (a negative index wrapped by 50000) and scatter-adds them onto the destinations,
  cuts plane 2 out of the stacked layer weights and row 2 out of the stacked biases, and lays the destination-side
  normalisation out as a column. Stretch 2 lays the batch vector out as a column and the classifier bias as a row.
  The arithmetic terms are stated whole and never opened; the layout operations are read at an index.
-/
import proofs.«405063_j37941741093409_1_alg».proof.Proof.Gen.KernelIdeal.Launch
import proofs.«405063_j37941741093409_1_alg».proof.Proof.Gen.KernelIdeal.Regions
import proofs.«405063_j37941741093409_1_alg».proof.Proof.LibKeepdims
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Idealize.ShloMosaic Idealize.ShloMosaic.TcCoe Idealize.ShloMosaic.StableHlo Idealize.ShloMosaic.ValueIdx

variable {F : FTy → Type} [FloatOps F]
variable (W : Valuation τ sig (Elt F))

variable {α : Type}

/-- A rank-3 array cut along its leading axis from plane `o` reads, at `(j, a, e)`, the source at `(k, a, e)` with
    `k = o + j`: the other two axes start at 0. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Stretch 0: the degree normalisations -/

/-- The source-side normalisation: max(out-degree, 1)^(−1/2), the out-degree a scatter-add of ones along the edges'
    sources. -/
theorem h0_v10 : after hostOps0 W (Proc.devRef .tc main_v10) =
    Host.powf (maximumf (Host.scatterAdd scatter_S50000_S800000x1_S800000_n_0_0_1
          (broadcastInDim S50000 ![] bcast_S_S50000 (constant (F := F) S_ .f32 0x00000000#32))
          (broadcastInDim S800000x1 ![0] bcast_S800000_S800000x1_0 (W (Proc.devRef .tc main_arg1)))
          (broadcastInDim S800000 ![] bcast_S_S800000 (constant (F := F) S_ .f32 0x3F800000#32)))
        (broadcastInDim S50000 ![] bcast_S_S50000 (constant (F := F) S_ .f32 0x3F800000#32)))
      (broadcastInDim S50000 ![] bcast_S_S50000 (constant (F := F) S_ .f32 0xBF000000#32)) := by
  after_results

/-- The destination-side normalisation: the same of the in-degree, scattered along the edges' destinations. -/
theorem h0_v14 : after hostOps0 W (Proc.devRef .tc main_v14) =
    Host.powf (maximumf (Host.scatterAdd scatter_S50000_S800000x1_S800000_n_0_0_1
          (broadcastInDim S50000 ![] bcast_S_S50000 (constant (F := F) S_ .f32 0x00000000#32))
          (broadcastInDim S800000x1 ![0] bcast_S800000_S800000x1_0 (W (Proc.devRef .tc main_arg2)))
          (broadcastInDim S800000 ![] bcast_S_S800000 (constant (F := F) S_ .f32 0x3F800000#32)))
        (broadcastInDim S50000 ![] bcast_S_S50000 (constant (F := F) S_ .f32 0x3F800000#32)))
      (broadcastInDim S50000 ![] bcast_S_S50000 (constant (F := F) S_ .f32 0xBF000000#32)) := by
  after_results

/-- The source-side normalisation as a column: entry `(p, 0)` is the vector's entry `p`. -/
theorem h0_v15_apply (p : Fin 50000) :
    (after hostOps0 W (Proc.devRef .tc main_v15) : S50000x1.Idx → _) (ix2 p (0 : Fin 1))
      = (after hostOps0 W (Proc.devRef .tc main_v10) : S50000.Idx → _) (ix1 p) := by
  after_results
  exact shapeCast_a_a1_apply _ _ p 0

/-! ## Stretch 1: the edge aggregation, the layer's weights and bias, the destination-side column -/

/-- The aggregation over the edges of what region 0 left in its output array: its rows gathered at the sources
    (an index below zero shifted up by the node count) and added onto the destinations, from zero. One term of that
    array's contents, kept closed. -/
theorem h1_v26 : after hostOps1 W (Proc.devRef .tc main_v26) =
    Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 (W (Proc.devRef .tc main_arg2)))
      (Host.gather gather_S50000x128_S800000x1_S800000x128_1_0_n_n_0_1_1128 (W (Proc.devRef .tc main_v16))
        (broadcastInDim S800000x1 ![0] bcast_S800000_S800000x1_0
          (select (cmpi .slt (W (Proc.devRef .tc main_arg1)) (broadcastInDim S800000 ![] bcast_S_S800000 (constantI S_ 32 0#32)))
            (addi (W (Proc.devRef .tc main_arg1)) (broadcastInDim S800000 ![] bcast_S_S800000 (constantI S_ 32 50000#32)))
            (W (Proc.devRef .tc main_arg1))))) := by
  after_results

/-- The layer's weights: plane 2 of the three stacked 128 × 128 matrices. -/
theorem h1_v28_apply (k q : Fin 128) :
    (after hostOps1 W (Proc.devRef .tc main_v28)) (ix2 k q) = (W (Proc.devRef .tc main_arg6)) (ix3 (2 : Fin 3) k q) := by
  after_results
  refine (shapeCast_1ab_ab_apply _ _ k q).trans ?_
  exact slice3_axis0_apply 2 _ _ (0 : Fin 1) k q (2 : Fin 3) rfl

/-- The layer's bias: row 2 of the three stacked 128-vectors. -/
theorem h1_v30_apply (q : Fin 128) :
    (after hostOps1 W (Proc.devRef .tc main_v30)) (ix1 q) = (W (Proc.devRef .tc main_arg7)) (ix2 (2 : Fin 3) q) := by
  after_results
  refine (shapeCast_1a_a_apply _ _ q).trans ?_
  exact slice2_axis0_apply 2 _ _ (0 : Fin 1) q (2 : Fin 3) rfl

/-- The destination-side normalisation as a column: entry `(p, 0)` is entry `p` of the vector the stretch finds. -/
theorem h1_v31_apply (p : Fin 50000) :
    (after hostOps1 W (Proc.devRef .tc main_v31)) (ix2 p (0 : Fin 1)) = (W (Proc.devRef .tc main_v14)) (ix1 p) := by
  after_results
  exact shapeCast_a_a1_apply _ _ p 0

/-! ## Stretch 2: the batch vector as a column, the classifier bias as a row -/

theorem h2_v33_apply (r : Fin 50000) :
    (after hostOps2 W (Proc.devRef .tc main_v33)) (ix2 r (0 : Fin 1)) = (W (Proc.devRef .tc main_arg3)) (ix1 r) := by
  after_results
  exact shapeCast_a_a1_apply _ _ r 0

theorem h2_v34_apply (d : Fin 2) :
    (after hostOps2 W (Proc.devRef .tc main_v34)) (ix2 (0 : Fin 1) d) = (W (Proc.devRef .tc main_arg9)) (ix1 d) := by
  after_results
  exact shapeCast_a_1a_apply _ _ 0 d

end Cert.KernelIdeal.HandValue

end
-- ==== Proof.Spec.lean ====
/-
  What the program computes, entry by entry, on the extended reals.  Arrays enter as plain functions of their coordinates.

  * `linAt`: row p of the features times the reduction weights, plus the bias, scaled by the row's source normalisation.
  * `convAt`: row p of the aggregated messages scaled by the row's destination normalisation, times the layer's weights,
    plus its bias, through the leaky rectifier (y where 0 ≤ y, slope·y elsewhere).
  * `gAt`: the sum over the nodes whose graph number, read signed, is j — the per-graph readout.
  * `clsAt`: the readout times the classifier's weights, plus its bias.
-/
import Idealize.ShloMosaic.PureOps.Ideal
import Mathlib.Data.EReal.Operations
import Mathlib.Algebra.BigOperators.Group.Finset.Basic

noncomputable section

open scoped BigOperators

namespace Cert.Spec

open Idealize.ShloMosaic

/-- The rectifier's slope on the negative side: the f32 nearest to 0.01, as the exact number its word denotes. -/
def slope : EReal := Ideal.ofBits .f32 0x3C23D70A#32

/-- The leaky rectifier. -/
def lrelu (y : EReal) : EReal := if (0 : EReal) ≤ y then y else slope * y

/-- The reduction layer at row `p`, column `q`, scaled by the row's normalisation. -/
def linAt (feat : Fin 50000 → Fin 256 → EReal) (w : Fin 256 → Fin 128 → EReal) (b : Fin 128 → EReal)
    (nrm : Fin 50000 → EReal) (p : Fin 50000) (q : Fin 128) : EReal :=
  ((∑ k : Fin 256, feat p k * w k q) + b q) * nrm p

/-- The convolution layer at row `p`, column `q`. -/
def convAt (agg : Fin 50000 → Fin 128 → EReal) (nrm : Fin 50000 → EReal) (w : Fin 128 → Fin 128 → EReal)
    (b : Fin 128 → EReal) (p : Fin 50000) (q : Fin 128) : EReal :=
  lrelu ((∑ k : Fin 128, (agg p k * nrm p) * w k q) + b q)

/-- The readout of graph `j`, column `k`: the rows whose graph number is `j`, summed. -/
def gAt (out : Fin 50000 → Fin 128 → EReal) (gid : Fin 50000 → BitVec 32) (j k : Fin 128) : EReal :=
  ∑ r : Fin 50000, if (gid r).toInt = (j.val : Int) then out r k else 0

/-- The classifier at graph `j`, class `d`. -/
def clsAt (g : Fin 128 → Fin 128 → EReal) (w : Fin 128 → Fin 2 → EReal) (b : Fin 2 → EReal) (j : Fin 128) (d : Fin 2) : EReal :=
  (∑ k : Fin 128, g j k * w k d) + b d

end Cert.Spec

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KI.V0.lean ====
/-
  The value of region 0: the array the pipeline leaves in the region's output window, entry by entry.

  The grid has ten points. At point t the body sees rows 5000·t … 5000·t + 4999 of the features and of the source
  normalisation, the whole weight matrix and the whole bias, and stores one block of 5000 × 128 entries: at (r, q) the
  sum over k of x(r, k) · w(k, q), plus b(q), times n(r, 0). The ten output blocks are the row ranges 5000·t … 5000·t + 4999
  of the result, so row p of the result is written by point p / 5000 and depends on row p of the features, column q of
  the weights, b(q) and the normalisation of row p: the specification's linear layer at (p, q).
-/
import proofs.«405063_j37941741093409_1_alg».proof.Proof.KI.R0D
import proofs.«405063_j37941741093409_1_alg».proof.Proof.Spec
import proofs.«405063_j37941741093409_1_alg».proof.Proof.LibDot
import proofs.«405063_j37941741093409_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx

/-! ## The body's arithmetic at one entry of its block -/

/-- Entry (r, q) of what the body stores: the row-by-column product of the two loaded matrices, plus the bias at q,
    times the loaded column's entry in row r. The format changes are the identity on extended reals, the product into
    the zero accumulator is the plain sum over the 256 contraction indices, the bias is read through its row broadcast
    and the column through its column broadcast. -/
theorem pay0_apply (x : Vec Ideal S5000x256 .f32) (w : Vec Ideal S256x128 .f32) (b : Vec Ideal S128 .f32)
    (n : Vec Ideal S5000x1 .f32) (r : Fin 5000) (q : Fin 128) :
    k0_pay1 (F := Ideal) x w b n (ix2 r q)
      = ((∑ k : Fin 256, x (ix2 r k) * w (ix2 k q)) + b (ix1 q)) * n (ix2 r (0 : Fin 1)) := by
  have hm : matmul dot_S5000x256_S256x128_S5000x128_1_0_0_1_n_n none
        (truncf .bf16 x bitsLt_bf16_f32 : FVec Ideal S5000x256 .bf16) (truncf .bf16 w bitsLt_bf16_f32 : FVec Ideal S256x128 .bf16)
        (constant S5000x128 .f32 0x00000000#32) (ix2 r q) = ∑ k : Fin 256, x (ix2 r k) * w (ix2 k q) :=
    Cert.LibDot.matmul_zero_apply dot_S5000x256_S256x128_S5000x128_1_0_0_1_n_n rfl rfl rfl rfl rfl rfl none _ _ r q
  have hb : broadcastTo S5000x128 (shapeCast S1x128 b shapeCasts_S128_S1x128) broadcasts_S1x128_S5000x128 (ix2 r q) = b (ix1 q) :=
    (broadcastTo_1b_ab_apply _ _ r q).trans (shapeCast_a_1a_apply b _ 0 q)
  have hn : broadcastTo S5000x128 (shapeCast S5000x1 n shapeCasts_S5000x1_S5000x1) broadcasts_S5000x1_S5000x128 (ix2 r q)
      = n (ix2 r (0 : Fin 1)) := by
    rw [shapeCast_self]
    exact broadcastTo_a1_ab_apply n _ r q
  unfold k0_pay1
  rw [mulf_apply, addf_apply, hm, hb, hn]

/-! ## The region's result as one function of the arrays it is entered with -/

variable (V : (c : Dev nD) → (b : Ref sig .tc) → Buf (Elt Ideal) ((c : Thread nD τ).loc b))

/-- The result array, index by index: the specification's linear layer of the features, the weights, the bias and the
    source normalisation as the region finds them. -/
def lin0 (c : Dev nD) : S50000x128.Idx → EReal := fun i =>
  Cert.Spec.linAt (fun p k => (V c main_arg0 : S50000x256.Idx → EReal) (ix2 p k))
    (fun k q => (V c main_arg4 : S256x128.Idx → EReal) (ix2 k q))
    (fun q => (V c main_arg5 : S128.Idx → EReal) (ix1 q))
    (fun p => (V c main_v15 : S50000x1.Idx → EReal) (ix2 p (0 : Fin 1))) (i 0) (i 1)

theorem hz2 : (![0, 0] : Fin 2 → Nat) = fun _ => 0 := funext fun a => by fin_cases a <;> rfl
theorem hz1 : (![0] : Fin 1 → Nat) = fun _ => 0 := funext fun a => by fin_cases a <;> rfl

/-- The index maps over the ten points: the feature, normalisation and output blocks are numbered by the point along the
    rows and are block 0 along the columns; the weights' and the bias's one block is block 0 at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at point t, entry (r, k), is the features' entry in row 5000·t + r, column k. -/
theorem xblk_apply (c : Dev nD) (t : Fin cfg0.N) (r : Fin 5000) (k : Fin 256) (P : Fin 50000)
    (hP : P.val = t.val * 5000 + r.val) :
    (iblk0 V c 0 t : Vec Ideal S5000x256 .f32) (ix2 r k) = (V c main_arg0 : S50000x256.Idx → EReal) (ix2 P k) := by
  obtain ⟨e0, e1, -⟩ := idx0 t
  show (V c main_arg0 : S50000x256.Idx → EReal) (((cfg0.win 0).blk t).view.emb (ix2 r k)) = _
  refine congrArg _ (funext fun a => Fin.ext ?_)
  match a with
  | ⟨0, _⟩ => show win0_0.index t (0 : Fin 2) * 5000 + 1 * r.val = P.val; rw [e0, hP]; omega
  | ⟨1, _⟩ => show win0_0.index t (1 : Fin 2) * 256 + 1 * k.val = k.val; rw [e1]; omega

/-- The weight block at every point is the whole weight matrix. -/
theorem wblk_apply (c : Dev nD) (t : Fin cfg0.N) (k : Fin 256) (q : Fin 128) :
    (iblk0 V c 1 t : Vec Ideal S256x128 .f32) (ix2 k q) = (V c main_arg4 : S256x128.Idx → EReal) (ix2 k q) := by
  obtain ⟨-, -, e0, e1, -⟩ := idx0 t
  show (V c main_arg4 : S256x128.Idx → EReal) (((cfg0.win 1).blk t).view.emb (ix2 k q)) = _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The bias block at every point is the whole bias. -/
theorem bblk_apply (c : Dev nD) (t : Fin cfg0.N) (q : Fin 128) :
    (iblk0 V c 2 t : Vec Ideal S128 .f32) (ix1 q) = (V c main_arg5 : S128.Idx → EReal) (ix1 q) := by
  obtain ⟨-, -, -, -, e0, -⟩ := idx0 t
  show (V c main_arg5 : S128.Idx → EReal) (((cfg0.win 2).blk t).view.emb (ix1 q)) = _
  refine congrArg _ (funext fun a => Fin.ext ?_)
  match a with
  | ⟨0, _⟩ => show win0_2.index t (0 : Fin 1) * 128 + 1 * q.val = q.val; rw [e0]; omega

/-- The normalisation block at point t, row r, is the normalisation of row 5000·t + r. -/
theorem nblk_apply (c : Dev nD) (t : Fin cfg0.N) (r : Fin 5000) (P : Fin 50000)
    (hP : P.val = t.val * 5000 + r.val) :
    (iblk0 V c 3 t : Vec Ideal S5000x1 .f32) (ix2 r (0 : Fin 1)) = (V c main_v15 : S50000x1.Idx → EReal) (ix2 P (0 : Fin 1)) := by
  obtain ⟨-, -, -, -, -, e0, e1, -⟩ := idx0 t
  show (V c main_v15 : S50000x1.Idx → EReal) (((cfg0.win 3).blk t).view.emb (ix2 r (0 : Fin 1))) = _
  refine congrArg _ (funext fun a => Fin.ext ?_)
  match a with
  | ⟨0, _⟩ => show win0_3.index t (0 : Fin 2) * 5000 + 1 * r.val = P.val; rw [e0, hP]; omega
  | ⟨1, _⟩ => show win0_3.index t (1 : Fin 2) * 1 + 1 * 0 = 0; rw [e1]

/-- One entry of the stored block against the specification: when the four loaded blocks are the rows 5000·T + r of the
    features and of the normalisation and the whole weights and bias, entry (r, q) of the body's result is the linear layer
    at (P, Q) for the row P = 5000·T + r and the column Q = q. -/
theorem pay0_lin (x : Vec Ideal S5000x256 .f32) (w : Vec Ideal S256x128 .f32) (b : Vec Ideal S128 .f32) (n : Vec Ideal S5000x1 .f32)
    (X : S50000x256.Idx → EReal) (W : S256x128.Idx → EReal) (B : S128.Idx → EReal) (N : S50000x1.Idx → EReal)
    (r : Fin 5000) (q : Fin 128) (P : Fin 50000) (Q : Fin 128) (hQ : Q.val = q.val)
    (hx : ∀ k : Fin 256, x (ix2 r k) = X (ix2 P k)) (hw : ∀ k : Fin 256, w (ix2 k q) = W (ix2 k q))
    (hb : b (ix1 q) = B (ix1 q)) (hn : n (ix2 r (0 : Fin 1)) = N (ix2 P (0 : Fin 1))) :
    k0_pay1 (F := Ideal) x w b n (ix2 r q)
      = Cert.Spec.linAt (fun p k => X (ix2 p k)) (fun k q => W (ix2 k q)) (fun q => B (ix1 q)) (fun p => N (ix2 p (0 : Fin 1))) P Q := by
  obtain rfl : Q = q := Fin.ext hQ
  rw [pay0_apply, hb, hn]
  unfold Cert.Spec.linAt
  refine congrArg (fun s => (s + B (ix1 Q)) * N (ix2 P (0 : Fin 1))) (Finset.sum_congr rfl fun k _ => ?_)
  rw [hx k, hw k]

/-- What point t writes back is block t of the result. -/
theorem flushed0_eq (c : Dev nD) (dat : Dat τ (Elt Ideal) Unit ℕ (UR sig nD τ) ℕ cfg0 c)
    (hafter : ∀ t, dat.after 4 t = out0_4 (iblk0 V c 0 t) (iblk0 V c 1 t) (iblk0 V c 2 t) (iblk0 V c 3 t))
    (t : Fin cfg0.N) :
    dat.flushed 4 t = ((cfg0.win 4).blk t).view.read (Elt Ideal) (lin0 V c) := by
  show (cfg0.win 4).cut (grid0.coords t) (dat.after 4 t) = _
  rw [hafter]
  unfold out0_4
  rw [View.canon_unit_zero hz2]
  simp only [View.ld_unit_zero (S := S5000x256) hz2, View.ld_unit_zero (S := S256x128) hz2,
    View.ld_unit_zero (S := S128) hz1, View.ld_unit_zero (S := S5000x1) hz2]
  obtain ⟨-, -, -, -, -, -, -, e0, e1⟩ := idx0 t
  funext j
  obtain ⟨r, q, rfl⟩ : ∃ (r : Fin 5000) (q : Fin 128), j = ix2 r q := ⟨j 0, j 1, eq_ix2 j⟩
  show k0_pay1 (F := Ideal) (iblk0 V c 0 t) (iblk0 V c 1 t) (iblk0 V c 2 t) (iblk0 V c 3 t) (ix2 r q)
    = lin0 V c (((cfg0.win 4).blk t).view.emb (ix2 r q))
  have hP : ((((cfg0.win 4).blk t).view.emb (ix2 r q)) 0 : Fin 50000).val = t.val * 5000 + r.val := by
    show win0_4.index t (0 : Fin 2) * 5000 + 1 * r.val = _; rw [e0]; omega
  have hQ : ((((cfg0.win 4).blk t).view.emb (ix2 r q)) 1 : Fin 128).val = q.val := by
    show win0_4.index t (1 : Fin 2) * 128 + 1 * q.val = _; rw [e1]; omega
  exact pay0_lin _ _ _ _ (V c main_arg0) (V c main_arg4) (V c main_arg5) (V c main_v15) r q _ _ hQ
    (fun k => xblk_apply V c t r k _ hP) (fun k => wblk_apply V c t k q) (bblk_apply V c t q) (nblk_apply V c t r _ hP)

/-- An index of the result is in point t's block iff its row is among the block's 5000 rows (and its column among the 128). -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- Every index of the result is in the block of the point its row divided by 5000 names, and every point writes back. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, e0, e1⟩ := idx0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-- THE REGION'S VALUE: after the ten points the output array holds, at (p, q), the specification's linear layer of the
    arrays the region is entered with. -/
theorem final0_of (c : Dev nD)
    (dat : Dat τ (Elt Ideal) Unit ℕ (UR sig nD τ) ℕ cfg0 c)
    (hA : ∀ w, dat.A w = V c (Pipeline.arrRef spec0 w))
    (hafter : ∀ t, dat.after 4 t = out0_4 (iblk0 V c 0 t) (iblk0 V c 1 t) (iblk0 V c 2 t) (iblk0 V c 3 t))
    (p : Fin 50000) (q : Fin 128) :
    dat.arrAt 4 cfg0.N (ix2 p q)
      = Cert.Spec.linAt (fun p k => (V c main_arg0 : S50000x256.Idx → EReal) (ix2 p k)) (fun k q => (V c main_arg4 : S256x128.Idx → EReal) (ix2 k q))
          (fun q => (V c main_arg5 : S128.Idx → EReal) (ix1 q))
          (fun p => (V c main_v15 : S50000x1.Idx → EReal) (ix2 p (0 : Fin 1))) p q :=
  congrFun (dat.arrAt_eq_of_cover 4 (lin0 V c) (fun t _ => flushed0_eq V c dat hafter t) cover0) (ix2 p q)

end Cert.KernelIdeal.HandValue

end
-- ==== Proof.KI.V1.lean ====
/-
  Region 1 (the graph convolution's dense half): the array the region leaves in its output window, entry by entry.

  The body's one store writes, at row r and column q of the point's block,
      lrelu( Σ_k (a(r,k) · n(r,0)) · w(k,q) + b(q) ),
  where a is the point's 5000 rows of the aggregated messages, n the same rows of the destination normalisation (a
  column), w the layer's weights and b its bias, and lrelu y is y where 0 ≤ y and slope · y elsewhere. The point t's
  blocks of the messages, of the normalisation and of the output are rows 5000·t … 5000·t + 4999 of their arrays; the
  weights and the bias are read whole at every point. So what point t writes back is block t of ONE function of the
  arrays the region is entered with — the specification's convolution layer —, the ten blocks cover the 50000 rows
  (row p lies in block p / 5000), and the output array ends holding that function.
-/
import proofs.«405063_j37941741093409_1_alg».proof.Proof.KI.R1D
import proofs.«405063_j37941741093409_1_alg».proof.Proof.Spec
import proofs.«405063_j37941741093409_1_alg».proof.Proof.LibDot
import proofs.«405063_j37941741093409_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx

/-! ## The body's payload at an entry -/

/-- The whole-buffer rectangles start at offset zero on both axes … -/
theorem zero_off2 : (![0, 0] : Fin 2 → Nat) = fun _ => 0 := funext fun a => by fin_cases a <;> rfl
/-- … and on the bias's one axis. -/
theorem zero_off1 : (![0] : Fin 1 → Nat) = fun _ => 0 := funext fun a => by fin_cases a <;> rfl

/-- The rectifier as the body spells it: compare with the zero word, keep y where 0 ≤ y, take slope · y elsewhere. -/
theorem rectifier_select (y : EReal) :
    Scalar.select (Ideal.cmp .oge y (Ideal.ofBits .f32 0x00000000#32)) y (Ideal.ofBits .f32 0x3C23D70A#32 * y)
      = Cert.Spec.lrelu y := by
  rw [Ideal.ofBits_zero_f32]
  have hc : Ideal.cmp .oge y 0 = BitVec.ofBool (decide ((0 : EReal) ≤ y)) := rfl
  unfold Cert.Spec.lrelu Cert.Spec.slope Scalar.select
  rw [hc]
  by_cases h : (0 : EReal) ≤ y
  · rw [if_pos h, decide_eq_true h]; exact if_pos rfl
  · rw [if_neg h, decide_eq_false h]; exact if_neg (by decide)

/-- THE PAYLOAD AT (r, q): the rectifier of row r of (a scaled by its row's normalisation) times column q of w, plus
    b(q). The scaling is a product with the column n broadcast along the row; the matrix product accumulates into zero;
    the bias is a row broadcast down the block; the casts to the same shape and the changes of format are the identity
    on the extended reals. -/
theorem pay1_apply (a : Vec Ideal S5000x128 .f32) (n : Vec Ideal S5000x1 .f32) (w : Vec Ideal S128x128 .f32)
    (b : Vec Ideal S128 .f32) (r : Fin 5000) (q : Fin 128) :
    k1_pay1 a n w b (ix2 r q)
      = Cert.Spec.lrelu ((∑ k : Fin 128, (a (ix2 r k) * n (ix2 r (0 : Fin 1))) * w (ix2 k q)) + b (ix1 q)) := by
  unfold k1_pay1
  rw [select_apply, cmpf_apply, mulf_apply, broadcast_apply, broadcast_apply]
  refine (rectifier_select _).trans (congrArg Cert.Spec.lrelu ?_)
  rw [addf_apply]
  refine congrArg₂ (· + ·) ?_ ?_
  · -- the product into the zero accumulator, term by term: row r of a, scaled by n(r, 0), against column q of w
    refine (Cert.LibDot.matmul_zero_apply dot_S5000x128_S128x128_S5000x128_1_0_0_1_n_n rfl rfl rfl rfl rfl rfl none _ _ r q).trans ?_
    refine Finset.sum_congr rfl fun k _ => ?_
    rw [truncf_apply, truncf_apply, mulf_apply, shapeCast_self, shapeCast_self, shapeCast_self, broadcastTo_a1_ab_apply]
  · -- the bias: a vector cast to one row, the row copied down the block
    rw [broadcastTo_1b_ab_apply, shapeCast_a_1a_apply, shapeCast_self]

/-! ## From blocks to the array -/

-- the buffer contents the region is entered with
variable (V : (c : Dev nD) → (b : Ref sig .tc) → Buf (Elt Ideal) ((c : Thread nD τ).loc b))

/-- The convolution layer of the arrays the region is entered with, as one function of the output array's index. -/
abbrev conv1 (c : Dev nD) : S50000x128.Idx → EReal := fun i =>
  Cert.Spec.convAt (fun p k => V c main_v26 (ix2 p k)) (fun p => V c main_v31 (ix2 p (0 : Fin 1)))
    (fun k q => V c main_v28 (ix2 k q)) (fun q => V c main_v30 (ix1 q)) (i 0) (i 1)

/-- The printed index maps, decided over the ten points: the messages', the normalisation's and the output's block
    index on the rows is the point's number and zero on the columns; the weights' and the bias's block is block zero. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row r of the messages' block at point t is row 5000·t + r of the array. -/
theorem iblk1_0_apply (c : Dev nD) (t : Fin cfg1.N) (r : Fin 5000) (k : Fin 128) (h : t.val * 5000 + r.val < 50000) :
    (iblk1 V c 0 t : Vec Ideal S5000x128 .f32) (ix2 r k) = V c main_v26 (ix2 (⟨t.val * 5000 + r.val, h⟩ : Fin 50000) k) := by
  obtain ⟨e0, e1, -⟩ := block_index1 t
  unfold iblk1
  rw [View.read_apply]
  show V c main_v26 _ = V c main_v26 _
  refine congrArg (V c main_v26) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Row r of the normalisation's block at point t is row 5000·t + r of the column. -/
theorem iblk1_1_apply (c : Dev nD) (t : Fin cfg1.N) (r : Fin 5000) (h : t.val * 5000 + r.val < 50000) :
    (iblk1 V c 1 t : Vec Ideal S5000x1 .f32) (ix2 r (0 : Fin 1)) = V c main_v31 (ix2 (⟨t.val * 5000 + r.val, h⟩ : Fin 50000) (0 : Fin 1)) := by
  obtain ⟨-, -, e0, e1, -⟩ := block_index1 t
  unfold iblk1
  rw [View.read_apply]
  show V c main_v31 _ = V c main_v31 _
  refine congrArg (V c main_v31) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

/-- The weights' block at every point is the whole matrix. -/
theorem iblk1_2_apply (c : Dev nD) (t : Fin cfg1.N) (k : Fin 128) (q : Fin 128) :
    (iblk1 V c 2 t : Vec Ideal S128x128 .f32) (ix2 k q) = V c main_v28 (ix2 k q) := by
  obtain ⟨-, -, -, -, e0, e1, -⟩ := block_index1 t
  unfold iblk1
  rw [View.read_apply]
  show V c main_v28 _ = V c main_v28 _
  refine congrArg (V c main_v28) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias's block at every point is the whole vector. -/
theorem iblk1_3_apply (c : Dev nD) (t : Fin cfg1.N) (q : Fin 128) :
    (iblk1 V c 3 t : Vec Ideal S128 .f32) (ix1 q) = V c main_v30 (ix1 q) := by
  obtain ⟨-, -, -, -, -, -, e0, -⟩ := block_index1 t
  unfold iblk1
  rw [View.read_apply]
  show V c main_v30 _ = V c main_v30 _
  refine congrArg (V c main_v30) (funext fun a => Fin.ext ?_)
  match a with
  | ⟨0, _⟩ => show win1_3.index t (0 : Fin 1) * 128 + 1 * q.val = q.val; rw [e0]; omega

/-- WHAT POINT t WRITES BACK is block t of the convolution layer of the arrays the region is entered with: the body's
    one store covers its buffer, its loads read the four input blocks whole, and entry (r, q) of the payload reads the
    arrays at row 5000·t + r, where the output block's entry (r, q) sits. -/
theorem flushed1_eq (c : Dev nD) (dat : Dat τ (Elt Ideal) Unit ℕ (UR sig nD τ) ℕ cfg1 c)
    (hafter : ∀ t, dat.after 4 t = out1_4 (iblk1 V c 0 t) (iblk1 V c 1 t) (iblk1 V c 2 t) (iblk1 V c 3 t))
    (t : Fin cfg1.N) :
    dat.flushed 4 t = ((cfg1.win 4).blk t).view.read (Elt Ideal) (conv1 V c) := by
  obtain ⟨-, -, -, -, -, -, -, e0, e1⟩ := block_index1 t
  have hN : cfg1.N = 10 := N_1
  have ht : t.val < 10 := hN ▸ t.isLt
  show (cfg1.win 4).cut (grid1.coords t) (dat.after 4 t) = _
  rw [hafter]
  unfold out1_4
  rw [View.canon_unit_zero zero_off2]
  simp only [View.ld_unit_zero (S := S5000x128) zero_off2, View.ld_unit_zero (S := S5000x1) zero_off2,
    View.ld_unit_zero (S := S128x128) zero_off2, View.ld_unit_zero (S := S128) zero_off1]
  funext j
  obtain ⟨r, q, rfl⟩ : ∃ (r : Fin 5000) (q : Fin 128), j = ix2 r q := ⟨j 0, j 1, eq_ix2 j⟩
  have hr : t.val * 5000 + r.val < 50000 := by have := r.isLt; omega
  show k1_pay1 (iblk1 V c 0 t) (iblk1 V c 1 t) (iblk1 V c 2 t) (iblk1 V c 3 t) (ix2 r q)
    = conv1 V c (((cfg1.win 4).blk t).view.emb (ix2 r q))
  have hemb : ((cfg1.win 4).blk t).view.emb (ix2 r q) = ix2 (⟨t.val * 5000 + r.val, hr⟩ : Fin 50000) q := by
    funext a; apply Fin.ext
    match a with
    | ⟨0, _⟩ => show win1_4.index t (0 : Fin 2) * 5000 + 1 * r.val = t.val * 5000 + r.val; rw [e0]; omega
    | ⟨1, _⟩ => show win1_4.index t (1 : Fin 2) * 128 + 1 * q.val = q.val; rw [e1]; omega
  rw [hemb]
  refine (pay1_apply _ _ _ _ r q).trans ?_
  show Cert.Spec.lrelu _ = Cert.Spec.lrelu _
  refine congrArg Cert.Spec.lrelu (congrArg₂ (· + ·) (Finset.sum_congr rfl fun k _ => ?_) (iblk1_3_apply V c t q))
  rw [iblk1_0_apply V c t r k hr, iblk1_1_apply V c t r hr, iblk1_2_apply V c t k q]

/-- An index of the output array is in point t's block iff each coordinate is in the block's range on its axis. -/
theorem mem_blk1 (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v32).slice (win1_4.rect t)).set ↔ _
  rw [View.set_slice_whole, Rect.mem_set_unit]
  exact Iff.rfl

/-- The ten blocks cover the array: row p lies in the block of point p / 5000, and every block spans all 128 columns. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, e0, e1⟩ := block_index1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE OUTPUT ARRAY AFTER THE REGION, entry (p, q): the specification's convolution layer of the arrays the region is
    entered with — the messages, the normalisation column, the weights, the bias. -/
theorem final1_of (V : (c : Dev nD) → (b : Ref sig .tc) → Buf (Elt Ideal) ((c : Thread nD τ).loc b)) (c : Dev nD)
    (dat : Dat τ (Elt Ideal) Unit ℕ (UR sig nD τ) ℕ cfg1 c)
    (hA : ∀ w, dat.A w = V c (Pipeline.arrRef spec1 w))
    (hafter : ∀ t, dat.after 4 t = out1_4 (iblk1 V c 0 t) (iblk1 V c 1 t) (iblk1 V c 2 t) (iblk1 V c 3 t))
    (p : Fin 50000) (q : Fin 128) :
    dat.arrAt 4 cfg1.N (ix2 p q)
      = Cert.Spec.convAt (fun p k => V c main_v26 (ix2 p k)) (fun p => V c main_v31 (ix2 p (0 : Fin 1))) (fun k q => V c main_v28 (ix2 k q))
          (fun q => V c main_v30 (ix1 q)) p q :=
  congrFun (dat.arrAt_eq_of_cover 4 (conv1 V c) (fun t _ => flushed1_eq V c dat hafter t) cover1) (ix2 p q)

end Cert.KernelIdeal.HandValue

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KI.V2.lean ====
/-
  Region 2's value: what the readout-and-classifier pipeline leaves in its output array, entry by entry, as the
  specification's function of the arrays the region is entered with. Everything here is at the extended reals.

  One point adds to the 128×128 accumulator, at (j, k), the sum over the point's 5000 rows whose graph number, read signed,
  is j of the row's entry in column k: the matrix with a one at (r, j) where row r's graph number is the word of j (a comparison
  with the column counter, widened to a word and converted), transposed, times the block of rows, added to what the
  accumulator held. The first point adds its term to zero, so after the tenth point the accumulator holds the sum of the ten
  points' terms; point t's rows are the rows 5000·t, …, 5000·t + 4999 of the arrays, and the ten stretches are all 50000 rows,
  so that sum is the per-graph sum over all the nodes. The last point multiplies the accumulator by the classifier's weights
  and adds its bias, both read whole at every point. The output window has one block, the whole 128×2 array, and it is written
  back after the last point only: the array ends holding the classifier of the readout.
-/
import proofs.«405063_j37941741093409_1_alg».proof.Proof.KI.R2D
import proofs.«405063_j37941741093409_1_alg».proof.Proof.Spec
import proofs.«405063_j37941741093409_1_alg».proof.Proof.LibAcc
import proofs.«405063_j37941741093409_1_alg».proof.Proof.LibBlockSum
import proofs.«405063_j37941741093409_1_alg».proof.Proof.LibDot
import proofs.«405063_j37941741093409_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx
open scoped BigOperators

namespace Readout

/-! ## One entry of the one-hot matrix -/

/-- A comparison for equality, widened to a word and converted as a signed integer, is one where the two words agree and
    zero where they differ. -/
theorem onehot_word (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  have e1 : ((BitVec.ofBool true).setWidth 32).toInt = 1 := by decide
  have e0 : ((BitVec.ofBool false).setWidth 32).toInt = 0 := by decide
  by_cases h : a = b
  · rw [if_pos h, beq_iff_eq.mpr h, e1]
    norm_num
  · rw [if_neg h, beq_eq_false_iff_ne.mpr h, e0]
    norm_num

/-- The same for the vectors of the kernel: the comparison of two word arrays, widened, converted and narrowed, at an index
    where the two arrays' words are known. -/
theorem onehot_entry (gb io : IVec S5000x128 32) (a b : BitVec 32) (i : S5000x128.Idx) (ha : gb i = a) (hb : io i = b) :
    (truncf .bf16 (sitofp .f32 (extui 32 (cmpi .eq gb io) natLt_1_32) : FVec Ideal S5000x128 .f32) bitsLt_bf16_f32
      : FVec Ideal S5000x128 .bf16) i = if a = b then 1 else 0 := by
  subst ha hb
  exact onehot_word _ _

/-- The one-hot matrix of a block of graph numbers, transposed, at row `j` and column `r`: one when row `r`'s number,
    read signed, is `j`. -/
theorem onehotT_apply (g : Vec Ideal S5000x1 .i32) (j : Fin 128) (r : Fin 5000) :
    (transpose S128x5000 [1, 0]
        (truncf .bf16 (sitofp .f32 (extui 32 (cmpi .eq
          (broadcastTo S5000x128 (shapeCast S5000x1 g shapeCasts_S5000x1_S5000x1) broadcasts_S5000x1_S5000x128)
          (iota .tc S5000x128 32 [1] iota_S5000x128_d1_w32)) natLt_1_32) : FVec Ideal S5000x128 .f32) bitsLt_bf16_f32
          : FVec Ideal S5000x128 .bf16)
        transposes_S5000x128_p1_0_S128x5000 : FVec Ideal S128x5000 .bf16) (ix2 j r)
      = if (g (ix2 r (0 : Fin 1))).toInt = (j.val : Int) then 1 else 0 := by
  refine (transpose_ix2_apply _ _ j r).trans ?_
  refine (onehot_entry _ _ (g (ix2 r (0 : Fin 1))) (BitVec.ofNat 32 j.val) (ix2 r j) ?_ ?_).trans ?_
  · refine (broadcastTo_a1_ab_apply _ _ r j).trans ?_
    exact congrFun (shapeCast_self g _) (ix2 r (0 : Fin 1))
  · exact iota_single_apply .tc S5000x128 32 1 _ (ix2 r j)
  · exact if_congr (Cert.LibBlockSum.eq_ofNat_iff_toInt_eq _ j.val (by have := j.isLt; omega)) rfl rfl

theorem pay1_apply (j k : Fin 128) : (k2_pay1 (F := Ideal)) (ix2 j k) = 0 := by
  unfold k2_pay1
  refine (congrFun (shapeCast_self _ _) (ix2 j k)).trans ?_
  exact Ideal.ofBits_zero_f32

/-- One point's update of the accumulator at `(j, k)`: what it held plus the sum, over the block's rows whose graph number is
    `j`, of the row's entry in column `k`. -/
theorem pay2_apply (x : Vec Ideal S5000x128 .f32) (g : Vec Ideal S5000x1 .i32) (s : Vec Ideal S128x128 .f32) (j k : Fin 128) :
    k2_pay2 x g s (ix2 j k)
      = s (ix2 j k) + ∑ r : Fin 5000, if (g (ix2 r (0 : Fin 1))).toInt = (j.val : Int) then x (ix2 r k) else 0 := by
  unfold k2_pay2
  refine (congrFun (shapeCast_self _ _) (ix2 j k)).trans ?_
  refine (addf_apply _ _ _).trans ?_
  congr 1
  refine (Cert.LibDot.matmul_zero_apply _ rfl rfl rfl rfl rfl rfl none _ _ j k).trans ?_
  refine Finset.sum_congr rfl fun r _ => ?_
  refine (congrArg₂ (· * ·) (onehotT_apply g j r) (congrFun (shapeCast_self x _) (ix2 r k))).trans ?_
  exact Cert.LibBlockSum.ite_one_zero_mul _ _

/-- The classifier at `(j, d)`: row `j` of the accumulator times column `d` of the weights, plus the bias of class `d`. -/
theorem pay3_apply (a : Vec Ideal S128x128 .f32) (w : Vec Ideal S128x2 .f32) (b : Vec Ideal S1x2 .f32) (j : Fin 128) (d : Fin 2) :
    k2_pay3 a w b (ix2 j d) = (∑ k : Fin 128, a (ix2 j k) * w (ix2 k d)) + b (ix2 (0 : Fin 1) d) := by
  unfold k2_pay3
  refine (addf_apply _ _ _).trans ?_
  congr 1
  · exact Cert.LibDot.matmul_zero_apply _ rfl rfl rfl rfl rfl rfl none _ _ j d
  · refine (broadcastTo_1b_ab_apply _ _ j d).trans ?_
    exact congrFun (shapeCast_self b _) _

/-! ## The blocks a point reads, as rows of the arrays -/

variable (V : (c : Dev nD) → (b : Ref sig .tc) → Buf (Elt Ideal) ((c : Thread nD τ).loc b))

/-- The four input blocks of a point, named at their literal types. -/
abbrev xblk (c : Dev nD) (t : Fin cfg2.N) : Vec Ideal S5000x128 .f32 := iblk2 V c 0 t
abbrev gblk (c : Dev nD) (t : Fin cfg2.N) : Vec Ideal S5000x1 .i32 := iblk2 V c 1 t
abbrev wblk (c : Dev nD) (t : Fin cfg2.N) : Vec Ideal S128x2 .f32 := iblk2 V c 2 t
abbrev bblk (c : Dev nD) (t : Fin cfg2.N) : Vec Ideal S1x2 .f32 := iblk2 V c 3 t

/-- The block index of each input window at a point: the node blocks move with the point, the classifier's stay. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

/-- Row `r` of the point's block of node rows is row `5000 · t + r` of the array. -/
theorem xblk_apply (c : Dev nD) (t : Fin cfg2.N) (r : Fin 5000) (k : Fin 128) (n : Fin 50000)
    (hn : n.val = 5000 * t.val + r.val) : xblk V c t (ix2 r k) = V c main_v32 (ix2 n k) := by
  show ((cfg2.win 0).blk t).view.read (Elt Ideal) (V c (Pipeline.arrRef spec2 0)) (ix2 r k) = _
  rw [View.read_apply]
  show V c main_v32 _ = V c main_v32 _
  congr 1
  funext a
  apply Fin.ext
  match a with
  | ⟨0, _⟩ => show win2_0.index t 0 * 5000 + 1 * r.val = n.val; rw [(idx2_0 t).1, hn]; omega
  | ⟨1, _⟩ => show win2_0.index t 1 * 128 + 1 * k.val = k.val; rw [(idx2_0 t).2]; omega

/-- Row `r` of the point's block of graph numbers is row `5000 · t + r` of the array. -/
theorem gblk_apply (c : Dev nD) (t : Fin cfg2.N) (r : Fin 5000) (n : Fin 50000)
    (hn : n.val = 5000 * t.val + r.val) : gblk V c t (ix2 r (0 : Fin 1)) = V c main_v33 (ix2 n (0 : Fin 1)) := by
  show ((cfg2.win 1).blk t).view.read (Elt Ideal) (V c (Pipeline.arrRef spec2 1)) (ix2 r (0 : Fin 1)) = _
  rw [View.read_apply]
  show V c main_v33 _ = V c main_v33 _
  congr 1
  funext a
  apply Fin.ext
  match a with
  | ⟨0, _⟩ => show win2_1.index t 0 * 5000 + 1 * r.val = n.val; rw [(idx2_1 t).1, hn]; omega
  | ⟨1, _⟩ => show win2_1.index t 1 * 1 + 1 * 0 = 0; rw [(idx2_1 t).2]

/-- The classifier's weights are read whole at every point. -/
theorem wblk_apply (c : Dev nD) (t : Fin cfg2.N) (k : Fin 128) (d : Fin 2) :
    wblk V c t (ix2 k d) = V c main_arg8 (ix2 k d) := by
  show ((cfg2.win 2).blk t).view.read (Elt Ideal) (V c (Pipeline.arrRef spec2 2)) (ix2 k d) = _
  rw [View.read_apply]
  show V c main_arg8 _ = V c main_arg8 _
  congr 1
  funext a
  apply Fin.ext
  match a with
  | ⟨0, _⟩ => show win2_2.index t 0 * 128 + 1 * k.val = k.val; rw [(idx2_2 t).1]; omega
  | ⟨1, _⟩ => show win2_2.index t 1 * 2 + 1 * d.val = d.val; rw [(idx2_2 t).2]; omega

/-- So is its bias. -/
theorem bblk_apply (c : Dev nD) (t : Fin cfg2.N) (d : Fin 2) :
    bblk V c t (ix2 (0 : Fin 1) d) = V c main_v34 (ix2 (0 : Fin 1) d) := by
  show ((cfg2.win 3).blk t).view.read (Elt Ideal) (V c (Pipeline.arrRef spec2 3)) (ix2 (0 : Fin 1) d) = _
  rw [View.read_apply]
  show V c main_v34 _ = V c main_v34 _
  congr 1
  funext a
  apply Fin.ext
  match a with
  | ⟨0, _⟩ => show win2_3.index t 0 * 1 + 1 * 0 = 0; rw [(idx2_3 t).1]
  | ⟨1, _⟩ => show win2_3.index t 1 * 2 + 1 * d.val = d.val; rw [(idx2_3 t).2]; omega

/-! ## The accumulator after the last point -/

/-- A point below ten is a point of the grid. -/
theorem lt_N {n : ℕ} (h : n < 1 * 10) : n < cfg2.N := by
  have hN : cfg2.N = 10 := N_2
  omega

/-- The term the point `n` adds to the accumulator at `(j, k)`. -/
def term2 (c : Dev nD) (j k : Fin 128) (n : ℕ) (hn : n < 1 * 10) : EReal :=
  ∑ r : Fin 5000, if (gblk V c ⟨n, lt_N hn⟩ (ix2 r (0 : Fin 1))).toInt = (j.val : Int)
    then xblk V c ⟨n, lt_N hn⟩ (ix2 r k) else 0

theorem term2_congr (c : Dev nD) (j k : Fin 128) {n n' : ℕ} (e : n = n') (h : n < 1 * 10) (h' : n' < 1 * 10) :
    term2 V c j k n h = term2 V c j k n' h' := by
  subst e; rfl

/-- After the last point the accumulator holds, at `(j, k)`, the sum of the ten points' terms. -/
theorem acc2_last (c : Dev nD) (h9 : 9 < cfg2.N) (j k : Fin 128) :
    acc2 V c 9 h9 (ix2 j k) = ∑ t : Fin 10, term2 V c j k t.val (by have := t.isLt; omega) := by
  have key := Cert.LibAcc.acc_last_zero (M := EReal) 10 1
    (fun n hn => acc2 V c n (lt_N hn) (ix2 j k)) (term2 V c j k) ((k2_pay1 (F := Ideal)) (ix2 j k)) (pay1_apply j k)
    (fun n hn h0 => by
      obtain rfl : n = 0 := by omega
      exact (congrFun (acc2_zero V c (lt_N hn)) (ix2 j k)).trans
        (pay2_apply (xblk V c ⟨0, lt_N hn⟩) (gblk V c ⟨0, lt_N hn⟩) (k2_pay1 (F := Ideal)) j k))
    (fun n hn h0 => by
      obtain ⟨m, rfl⟩ : ∃ m, n = m + 1 := ⟨n - 1, by omega⟩
      exact (congrFun (acc2_succ V c m (lt_N hn)) (ix2 j k)).trans
        (pay2_apply (xblk V c ⟨m + 1, lt_N hn⟩) (gblk V c ⟨m + 1, lt_N hn⟩) (acc2 V c m (Nat.lt_of_succ_lt (lt_N hn))) j k))
    (by omega) (0 : Fin 1)
  refine Eq.trans ?_ (key.trans (Finset.sum_congr rfl fun t _ => term2_congr V c j k (by simp) _ _))
  rfl

/-! ## The readout: the ten blocks of rows are all the rows -/

/-- The node rows and their graph numbers as the region finds them, and the classifier's weights and bias, as plain
    functions of their coordinates. -/
abbrev outArr (c : Dev nD) : Fin 50000 → Fin 128 → EReal := fun r k => V c main_v32 (ix2 r k)
abbrev gidArr (c : Dev nD) : Fin 50000 → BitVec 32 := fun r => V c main_v33 (ix2 r (0 : Fin 1))
abbrev wArr (c : Dev nD) : Fin 128 → Fin 2 → EReal := fun k d => V c main_arg8 (ix2 k d)
abbrev bArr (c : Dev nD) : Fin 2 → EReal := fun d => V c main_v34 (ix2 (0 : Fin 1) d)

/-- The ten points' terms add up to the readout of graph `j` in column `k`: point `t`'s rows are the rows
    `5000 · t, …, 5000 · t + 4999`, and the ten stretches are all 50000 rows. -/
theorem sum_term2 (c : Dev nD) (j k : Fin 128) :
    ∑ t : Fin 10, term2 V c j k t.val (by have := t.isLt; omega) = Cert.Spec.gAt (outArr V c) (gidArr V c) j k := by
  refine Eq.trans ?_ (Cert.LibBlockSum.sum_blocks (B := 10) (R := 5000) (N := 50000) (by norm_num)
    (fun n : Fin 50000 => if (gidArr V c n).toInt = (j.val : Int) then outArr V c n k else 0)).symm
  refine Finset.sum_congr rfl fun t _ => Finset.sum_congr rfl fun r _ => ?_
  have e1 := gblk_apply V c ⟨t.val, lt_N (by have := t.isLt; omega)⟩ r
    (Cert.LibBlockSum.blockIdx (B := 10) (R := 5000) (N := 50000) (by norm_num) t r) rfl
  have e2 := xblk_apply V c ⟨t.val, lt_N (by have := t.isLt; omega)⟩ r k
    (Cert.LibBlockSum.blockIdx (B := 10) (R := 5000) (N := 50000) (by norm_num) t r) rfl
  rw [e1, e2]

/-! ## The classifier, and the output array -/

/-- What the last point stores into the output block: the classifier of the readout. -/
theorem fin2_last (c : Dev nD) (t : Fin cfg2.N) (ht : t.val = 9) (j : Fin 128) (d : Fin 2) :
    fin2 V c t (ix2 j d) = Cert.Spec.clsAt (Cert.Spec.gAt (outArr V c) (gidArr V c)) (wArr V c) (bArr V c) j d := by
  obtain ⟨tv, htl⟩ := t
  dsimp only at ht
  subst ht
  refine (pay3_apply (acc2 V c 9 htl) (wblk V c ⟨9, htl⟩) (bblk V c ⟨9, htl⟩) j d).trans ?_
  unfold Cert.Spec.clsAt
  refine congrArg₂ (· + ·) ?_ ?_
  · refine Finset.sum_congr rfl fun k _ => ?_
    rw [acc2_last V c htl j k, sum_term2 V c j k, wblk_apply V c ⟨9, htl⟩ k d]
  · exact bblk_apply V c ⟨9, htl⟩ d

/-- The output window's one block is the whole array, at every point. -/
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-- The classifier's result as contents of the output array. -/
def clsArr (c : Dev nD) : Buf (Elt Ideal) ((c : Thread nD τ).loc main_v35) :=
  fun i => Cert.Spec.clsAt (Cert.Spec.gAt (outArr V c) (gidArr V c)) (wArr V c) (bArr V c) (i 0) (i 1)

end Readout

open Readout

variable (V : (c : Dev nD) → (b : Ref sig .tc) → Buf (Elt Ideal) ((c : Thread nD τ).loc b))

/-- The output array after the region: written back once, after the last point, with the classifier of the readout. -/
theorem final2_of (c : Dev nD)
    (dat : Dat τ (Elt Ideal) Unit ℕ (UR sig nD τ) ℕ cfg2 c)
    (hA : ∀ w, dat.A w = V c (Pipeline.arrRef spec2 w))
    (hafter : ∀ t, dat.after 4 t = fin2 V c t)
    (j : Fin 128) (d : Fin 2) :
    dat.arrAt 4 cfg2.N (ix2 j d)
      = Cert.Spec.clsAt (Cert.Spec.gAt (fun r k => V c main_v32 (ix2 r k)) (fun r => V c main_v33 (ix2 r (0 : Fin 1))))
          (fun k d => V c main_arg8 (ix2 k d)) (fun d => V c main_v34 (ix2 (0 : Fin 1) d)) j d := by
  have hN : cfg2.N = 10 := N_2
  have hflush : ∀ t : Fin cfg2.N, (cfg2.win 4).flush t = true → t.val = 9 := fun t hf => by
    have h1 := (flush2_4 t).mp hf
    have h2 := t.isLt
    omega
  have hG : ∀ t, (cfg2.win 4).flush t = true →
      dat.flushed 4 t = ((cfg2.win 4).blk t).view.read (Elt Ideal) (clsArr V c) := by
    intro t hf
    funext y
    obtain ⟨p, q, rfl⟩ : ∃ (p : Fin 128) (q : Fin 2), y = ix2 p q := ⟨y 0, y 1, eq_ix2 y⟩
    show (cfg2.win 4).cut (grid2.coords t) (dat.after 4 t) (ix2 p q) = _
    rw [hafter t, View.read_apply]
    show fin2 V c t (ix2 p q) = clsArr V c (((cfg2.win 4).blk t).view.emb (ix2 p q))
    have e : ((cfg2.win 4).blk t).view.emb (ix2 p q) = ix2 p q := by
      funext a
      apply Fin.ext
      match a with
      | ⟨0, _⟩ => show win2_4.index t 0 * 128 + 1 * p.val = p.val; rw [(idx2_4 t).1]; omega
      | ⟨1, _⟩ => show win2_4.index t 1 * 2 + 1 * q.val = q.val; rw [(idx2_4 t).2]; omega
    rw [e, fin2_last V c t (hflush t hf) p q]
    rfl
  have hcover : ∀ i : ((cfg2.win 4).arr.view.loc (c.tc : Thread nD τ)).2.ty.Idx,
      ∃ t : Fin cfg2.N, (cfg2.win 4).flush t = true ∧ i ∈ ((cfg2.win 4).blk t).view.set := fun i => by
    refine ⟨t2_9, (flush2_4 t2_9).mpr rfl, ?_⟩
    show i ∈ ((View.whole main_v35).slice (win2_4.rect t2_9)).set
    rw [View.set_slice_whole, Rect.mem_set_unit]
    intro a
    have h0 : (i 0).val < 128 := (i 0).isLt
    have h1 : (i 1).val < 2 := (i 1).isLt
    match a with
    | ⟨0, _⟩ =>
      show win2_4.index t2_9 0 * 128 ≤ (i 0).val ∧ (i 0).val < win2_4.index t2_9 0 * 128 + 128
      rw [(idx2_4 t2_9).1]; omega
    | ⟨1, _⟩ =>
      show win2_4.index t2_9 1 * 2 ≤ (i 1).val ∧ (i 1).val < win2_4.index t2_9 1 * 2 + 2
      rw [(idx2_4 t2_9).2]; omega
  exact congrFun (dat.arrAt_eq_of_cover 4 (clsArr V c) hG hcover) (ix2 j d)

end Cert.KernelIdeal.HandValue
end
-- ==== Proof.KI.Chain.lean ====
/-
  The program's result, entry by entry, as the specification's layers of the arrays the program is launched with.

  The run passes six boundaries: the launch memory, then alternately a host stretch applied and a region's exit. Each
  region's output array is, at every entry, one layer of the specification applied to the arrays the region is entered
  with; each of those arrays is either a launch array that nothing has written since (so it still is the launch array),
  or a host stretch's layout of one (a column or a row of a vector, a plane of the stacked weights), or an earlier
  region's output. Chaining these readings back to the launch memory:

  * region 0 leaves the linear layer of the features, the reduction weights and bias, scaled by the source-side degree
    normalisation;
  * the second host stretch aggregates that over the edges (one closed term of it and of the two edge-endpoint arrays);
  * region 1 leaves the convolution layer of the aggregate, the destination-side normalisation, and plane 2 of the layer
    weights and biases;
  * region 2 leaves the classifier of the per-graph readout of region 1's output.
-/
import proofs.«405063_j37941741093409_1_alg».proof.Proof.KI.Run
import proofs.«405063_j37941741093409_1_alg».proof.Proof.KI.HostVals
import proofs.«405063_j37941741093409_1_alg».proof.Proof.KI.V0
import proofs.«405063_j37941741093409_1_alg».proof.Proof.KI.V1
import proofs.«405063_j37941741093409_1_alg».proof.Proof.KI.V2

set_option maxRecDepth 16384

noncomputable section

namespace Cert.KernelIdeal.HandValue

open Cert.KernelIdeal Cert.KernelIdeal.Gen Cert.KernelIdeal.Hand Idealize.ShloMosaic Idealize.ShloMosaic.TcCoe Idealize.ShloMosaic.StableHlo Idealize.ShloMosaic.ValueIdx
open Idealize.ShloMosaic.Pipeline (Dat)

/-! ## The specification's functions depend on their arrays entry by entry

Each of the three layers reads its arrays only through their entries, so two lists of arrays that agree entry by entry
give the same layer. -/

theorem linAt_congr {f f' : Fin 50000 → Fin 256 → EReal} {w w' : Fin 256 → Fin 128 → EReal} {b b' : Fin 128 → EReal}
    {n n' : Fin 50000 → EReal} (hf : ∀ p k, f p k = f' p k) (hw : ∀ k q, w k q = w' k q) (hb : ∀ q, b q = b' q)
    (hn : ∀ p, n p = n' p) (p : Fin 50000) (q : Fin 128) :
    Cert.Spec.linAt f w b n p q = Cert.Spec.linAt f' w' b' n' p q := by
  rw [show f = f' from funext fun p => funext (hf p), show w = w' from funext fun k => funext (hw k),
    show b = b' from funext hb, show n = n' from funext hn]

theorem convAt_congr {a a' : Fin 50000 → Fin 128 → EReal} {n n' : Fin 50000 → EReal} {w w' : Fin 128 → Fin 128 → EReal}
    {b b' : Fin 128 → EReal} (ha : ∀ p k, a p k = a' p k) (hn : ∀ p, n p = n' p) (hw : ∀ k q, w k q = w' k q)
    (hb : ∀ q, b q = b' q) (p : Fin 50000) (q : Fin 128) :
    Cert.Spec.convAt a n w b p q = Cert.Spec.convAt a' n' w' b' p q := by
  rw [show a = a' from funext fun p => funext (ha p), show n = n' from funext hn,
    show w = w' from funext fun k => funext (hw k), show b = b' from funext hb]

theorem clsAt_gAt_congr {o o' : Fin 50000 → Fin 128 → EReal} {g g' : Fin 50000 → BitVec 32} {w w' : Fin 128 → Fin 2 → EReal}
    {b b' : Fin 2 → EReal} (ho : ∀ r k, o r k = o' r k) (hg : ∀ r, g r = g' r) (hw : ∀ k d, w k d = w' k d)
    (hb : ∀ d, b d = b' d) (j : Fin 128) (d : Fin 2) :
    Cert.Spec.clsAt (Cert.Spec.gAt o g) w b j d = Cert.Spec.clsAt (Cert.Spec.gAt o' g') w' b' j d := by
  rw [show o = o' from funext fun r => funext (ho r), show g = g' from funext hg,
    show w = w' from funext fun k => funext (hw k), show b = b' from funext hb]

variable (m : (ℓ : Loc nD τ sig) → Buf (Elt Ideal) ℓ) (c : Dev nD)

/-! ## A launch array that nothing has written is still the launch array

A reference that no host stretch so far lists among its results and that is not an earlier region's output array holds,
at each boundary, what the launch memory holds. -/

theorem W2_launch (b : Ref sig .tc) (h0 : b ∉ hostOps0_W) (h1 : b ≠ main_v16) :
    W2 m c (Proc.devRef .tc b) = m ((c : Thread nD τ).loc b) :=
  (W2_keep m c b h1).trans ((W1_keep m c b h0).trans rfl)

theorem W4_launch (b : Ref sig .tc) (h0 : b ∉ hostOps0_W) (h1 : b ≠ main_v16) (h2 : b ∉ hostOps1_W) (h3 : b ≠ main_v32) :
    W4 m c (Proc.devRef .tc b) = m ((c : Thread nD τ).loc b) :=
  (W4_keep m c b h3).trans ((W3_keep m c b h2).trans (W2_launch m c b h0 h1))

theorem W5_launch (b : Ref sig .tc) (h0 : b ∉ hostOps0_W) (h1 : b ≠ main_v16) (h2 : b ∉ hostOps1_W) (h3 : b ≠ main_v32)
    (h4 : b ∉ hostOps2_W) : W5 m c (Proc.devRef .tc b) = m ((c : Thread nD τ).loc b) :=
  (W5_keep m c b h4).trans (W4_launch m c b h0 h1 h2 h3)

/-! ## The two degree normalisations, as vectors of the launch memory's edge arrays -/

/-- The source-side normalisation vector: what the first host stretch leaves for it, from the launch memory. -/
abbrev nrmO : S50000.Idx → EReal := after hostOps0 (W0 m c) (Proc.devRef .tc main_v10)
/-- The destination-side normalisation vector. -/
abbrev nrmI : S50000.Idx → EReal := after hostOps0 (W0 m c) (Proc.devRef .tc main_v14)

/-! ## Region 0's output: the linear layer -/

/-- Entry (p, q) of region 0's output array at its exit: the linear layer of the launch features, reduction weights and
    bias, row p scaled by the source-side normalisation. The region is entered after the first host stretch, which
    writes none of the three launch arrays and lays the normalisation out as the column the region reads. -/
theorem xs_apply (p : Fin 50000) (q : Fin 128) :
    (W2 m c (Proc.devRef .tc main_v16) : S50000x128.Idx → EReal) (ix2 p q)
      = Cert.Spec.linAt (fun p k => (m ((c : Thread nD τ).loc main_arg0) : S50000x256.Idx → EReal) (ix2 p k))
          (fun k q => (m ((c : Thread nD τ).loc main_arg4) : S256x128.Idx → EReal) (ix2 k q))
          (fun q => (m ((c : Thread nD τ).loc main_arg5) : S128.Idx → EReal) (ix1 q))
          (fun p => nrmO m c (ix1 p)) p q := by
  have h := final0_of (V1 m) c (dat0 (V1 m) c) (A_eq0 (V1 m) c) (after0_4 (V1 m) c) p q
  refine (congrFun (W2_arr m c 4) (ix2 p q)).trans (h.trans (linAt_congr ?_ ?_ ?_ ?_ p q))
  · intro p k; exact congrFun ((W1_keep m c main_arg0 (by decide)).trans rfl) (ix2 p k)
  · intro k q; exact congrFun ((W1_keep m c main_arg4 (by decide)).trans rfl) (ix2 k q)
  · intro q; exact congrFun ((W1_keep m c main_arg5 (by decide)).trans rfl) (ix1 q)
  · intro p; exact h0_v15_apply (W0 m c) p

/-! ## The aggregate over the edges -/

/-- What the second host stretch leaves as the aggregate: the gather–scatter term of region 0's output array and of
    the launch memory's two edge-endpoint arrays (region 0 and the first stretch write neither). -/
theorem agg_eq : W3 m c (Proc.devRef .tc main_v26) =
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (m ((c : Thread nD τ).loc main_arg2)))
      (Host.gather gather_S50000x128_S800000x1_S800000x128_1_0_n_n_0_1_1128 (W2 m c (Proc.devRef .tc main_v16))
        (broadcastInDim S800000x1 ![0] bcast_S800000_S800000x1_0
          (select (cmpi .slt (m ((c : Thread nD τ).loc main_arg1)) (broadcastInDim S800000 ![] bcast_S_S800000 (constantI S_ 32 0#32)))
            (addi (m ((c : Thread nD τ).loc main_arg1)) (broadcastInDim S800000 ![] bcast_S_S800000 (constantI S_ 32 50000#32)))
            (m ((c : Thread nD τ).loc main_arg1))))) := by
  have e1 : W2 m c (Proc.devRef .tc main_arg1) = m ((c : Thread nD τ).loc main_arg1) := W2_launch m c main_arg1 (by decide) (by decide)
  have e2 : W2 m c (Proc.devRef .tc main_arg2) = m ((c : Thread nD τ).loc main_arg2) := W2_launch m c main_arg2 (by decide) (by decide)
  rw [← e1, ← e2]
  exact h1_v26 (W2 m c)

/-! ## Region 1's output: the convolution layer -/

/-- Entry (p, q) of region 1's output array at its exit: the convolution layer of the aggregate, row p scaled by the
    destination-side normalisation, with plane 2 of the launch layer weights and row 2 of the launch layer biases. The
    normalisation column the region reads is the second stretch's layout of the vector the first stretch made, which
    region 0 does not touch. -/
theorem out_apply (p : Fin 50000) (q : Fin 128) :
    (W4 m c (Proc.devRef .tc main_v32) : S50000x128.Idx → EReal) (ix2 p q)
      = Cert.Spec.convAt (fun p k => (W3 m c (Proc.devRef .tc main_v26) : S50000x128.Idx → EReal) (ix2 p k))
          (fun p => nrmI m c (ix1 p))
          (fun k q => (m ((c : Thread nD τ).loc main_arg6) : S3x128x128.Idx → EReal) (ix3 (2 : Fin 3) k q))
          (fun q => (m ((c : Thread nD τ).loc main_arg7) : S3x128.Idx → EReal) (ix2 (2 : Fin 3) q)) p q := by
  have h := final1_of (V3 m) c (dat1 (V3 m) c) (A_eq1 (V3 m) c) (after1_4 (V3 m) c) p q
  refine (congrFun (W4_arr m c 4) (ix2 p q)).trans (h.trans (convAt_congr ?_ ?_ ?_ ?_ p q))
  · intro p k; rfl
  · intro p
    exact (h1_v31_apply (W2 m c) p).trans (congrFun (W2_keep m c main_v14 (by decide)) (ix1 p))
  · intro k q
    exact (h1_v28_apply (W2 m c) k q).trans (congrFun (W2_launch m c main_arg6 (by decide) (by decide)) (ix3 (2 : Fin 3) k q))
  · intro q
    exact (h1_v30_apply (W2 m c) q).trans (congrFun (W2_launch m c main_arg7 (by decide) (by decide)) (ix2 (2 : Fin 3) q))

/-! ## Region 2's output: the classifier of the readout -/

/-- Entry (j, d) of the result: the classifier of the per-graph readout of region 1's output, the graph numbers the
    launch batch vector (the third stretch lays it out as a column), the weights the launch classifier weights, the
    bias the launch classifier bias (laid out as a row). -/
theorem res_apply (j : Fin 128) (d : Fin 2) :
    ((dat2 (V5 m) c).arrAt 4 cfg2.N) (ix2 j d)
      = Cert.Spec.clsAt
          (Cert.Spec.gAt (fun r k => (W4 m c (Proc.devRef .tc main_v32) : S50000x128.Idx → EReal) (ix2 r k))
            (fun r => (m ((c : Thread nD τ).loc main_arg3) : S50000.Idx → BitVec 32) (ix1 r)))
          (fun k d => (m ((c : Thread nD τ).loc main_arg8) : S128x2.Idx → EReal) (ix2 k d))
          (fun d => (m ((c : Thread nD τ).loc main_arg9) : S2.Idx → EReal) (ix1 d)) j d := by
  have h := final2_of (V5 m) c (dat2 (V5 m) c) (A_eq2 (V5 m) c) (after2_4 (V5 m) c) j d
  refine h.trans (clsAt_gAt_congr ?_ ?_ ?_ ?_ j d)
  · intro r k; exact congrFun (W5_keep m c main_v32 (by decide)) (ix2 r k)
  · intro r
    exact (h2_v33_apply (W4 m c) r).trans
      (congrFun (W4_launch m c main_arg3 (by decide) (by decide) (by decide) (by decide)) (ix1 r))
  · intro k d
    exact congrFun (W5_launch m c main_arg8 (by decide) (by decide) (by decide) (by decide) (by decide)) (ix2 k d)
  · intro d
    exact (h2_v34_apply (W4 m c) d).trans
      (congrFun (W4_launch m c main_arg9 (by decide) (by decide) (by decide) (by decide)) (ix1 d))

end Cert.KernelIdeal.HandValue

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.Ref.Val.lean ====
/-
  The reference program's values, read entry by entry on the extended reals.

  The reference is a straight line of host tensor operations. Only its third convolution layer reaches the result: the
  classifier reads the per-graph sums of that layer's output, the layer reads the edge aggregation of the scaled reduction
  layer, and both scalings are inverse square roots of degree counts. Each of these stages is first taken out of the run as one
  equation over the stage's operand buffers, and then read at an index: a matrix product as a sum over the contraction index, a
  broadcast of a row or a column as the vector's entry, a slice and reshape of the stacked weights as the third slab, the
  rectifier's select as a case split on the sign, the pooling scatter-add as a sum over the rows with that graph number.
-/
import proofs.«405063_j37941741093409_1_alg».proof.Proof.Ref.Run
import proofs.«405063_j37941741093409_1_alg».proof.Proof.Spec
import proofs.«405063_j37941741093409_1_alg».proof.Proof.LibDot
import proofs.«405063_j37941741093409_1_alg».proof.Proof.LibIndex
import proofs.«405063_j37941741093409_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.ReferenceIdeal.HandValue

open Cert.ReferenceIdeal Cert.ReferenceIdeal.Gen Cert.ReferenceIdeal.HandRun Idealize.ShloMosaic Idealize.ShloMosaic.TcCoe
open Idealize.ShloMosaic.StableHlo Idealize.ShloMosaic.ValueIdx

/-! ## Broadcasts of a vector along a new axis, read at an index -/

section Bcast
variable {α : Type}

/-- A vector `[b]` laid as the row `[1, b]` reads, at `(u, q)`, its entry `q`. -/
theorem bIn_row_apply {b : ℕ} (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) ?_
  intro a
  match a with
  | ⟨0, _⟩ =>
    show q.val = if b = 1 then 0 else q.val
    split
    · have := q.isLt; omega
    · rfl

/-- A vector `[a]` laid as the column `[a, 1]` reads, at `(p, u)`, its entry `p`. -/
theorem bIn_col_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) ?_
  intro c
  match c with
  | ⟨0, _⟩ =>
    show p.val = if a = 1 then 0 else p.val
    split
    · have := p.isLt; omega
    · rfl

/-- A column `[a, 1]` repeated along `b` columns reads, at `(p, q)`, the column's entry in row `p`. -/
theorem bIn_colMat_apply {a b : ℕ} (h : (⟨2, ![a, 1]⟩ : Shape).BroadcastsInDim ⟨2, ![a, b]⟩ ![0, 1])
    (y : (⟨2, ![a, 1]⟩ : Shape).Idx → α) (p : Fin a) (q : Fin b) :
    broadcastInDim ⟨2, ![a, b]⟩ ![0, 1] h y (ix2 p q) = y (ix2 p (0 : Fin 1)) := by
  refine broadcastInDim_apply ![0, 1] h y (ix2 p q) (ix2 p (0 : Fin 1)) ?_
  intro c
  match c with
  | ⟨0, _⟩ =>
    show p.val = if a = 1 then 0 else p.val
    split
    · have := p.isLt; omega
    · rfl
  | ⟨1, _⟩ =>
    show (0 : ℕ) = if (1 : ℕ) = 1 then 0 else q.val
    rfl

/-- A vector `[b]` repeated down `a` rows (as a row first) reads, at `(p, q)`, its entry `q`. -/
theorem bIn_rows_apply {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α) (p : Fin a) (q : Fin b) :
    broadcastInDim ⟨2, ![a, b]⟩ ![0, 1] h2 (broadcastInDim ⟨2, ![1, b]⟩ ![1] h1 x) (ix2 p q) = x (ix1 q) :=
  (broadcastInDim_oneRow_apply h2 _ p q).trans (bIn_row_apply h1 x 0 q)

/-- A vector `[a]` repeated along `b` columns (as a column first) reads, at `(p, q)`, its entry `p`. -/
theorem bIn_cols_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1]) (x : (⟨1, ![a]⟩ : Shape).Idx → α) (p : Fin a) (q : Fin b) :
    broadcastInDim ⟨2, ![a, b]⟩ ![0, 1] h2 (broadcastInDim ⟨2, ![a, 1]⟩ ![0] h1 x) (ix2 p q) = x (ix1 p) :=
  (bIn_colMat_apply h2 _ p q).trans (bIn_col_apply h1 x p 0)

end Bcast

/-! ## The stages as functions of their operands, read at an index

Each lemma is about variables of the stage's literal array types; the run's buffers are put in afterwards. -/

/-- The third slab of the stacked weights, as a matrix: the slice `[2:3]` with its unit axis dropped. -/
theorem slab2_apply (w : FVec Ideal S3x128x128 .f32) (k q : Fin 128) :
    shapeCast S128x128 (extractStridedSlice S1x128x128 ![2, 0, 0] w slices_S3x128x128_S1x128x128_2_0_0) shapeCasts_S1x128x128_S128x128 (ix2 k q)
      = w (ix3 (2 : Fin 3) k q) :=
  (shapeCast_1ab_ab_apply _ shapeCasts_S1x128x128_S128x128 k q).trans
    (extractStridedSlice_apply ![2, 0, 0] w slices_S3x128x128_S1x128x128_2_0_0 (ix3 (0 : Fin 1) k q) (ix3 (2 : Fin 3) k q)
      fun a => match a with
        | ⟨0, _⟩ => rfl
        | ⟨1, _⟩ => (Nat.zero_add _).symm
        | ⟨2, _⟩ => (Nat.zero_add _).symm)

/-- The third row of the stacked biases, as a vector. -/
theorem row2_apply (b : FVec Ideal S3x128 .f32) (q : Fin 128) :
    shapeCast S128 (extractStridedSlice S1x128 ![2, 0] b slices_S3x128_S1x128_2_0) shapeCasts_S1x128_S128 (ix1 q)
      = b (ix2 (2 : Fin 3) q) :=
  (shapeCast_1a_a_apply _ shapeCasts_S1x128_S128 q).trans
    (extractStridedSlice_apply ![2, 0] b slices_S3x128_S1x128_2_0 (ix2 (0 : Fin 1) q) (ix2 (2 : Fin 3) q)
      fun a => match a with
        | ⟨0, _⟩ => rfl
        | ⟨1, _⟩ => (Nat.zero_add _).symm)

/-- The leaky rectifier as the reference spells it: keep `y` where `y ≥ 0`, take slope·`y` elsewhere. -/
def lreluV (y : FVec Ideal S50000x128 .f32) : FVec Ideal S50000x128 .f32 :=
  select (cmpf .oge y (broadcastInDim S50000x128 ![] bcast_S_S50000x128 (constant (F := Ideal) S_ .f32 0x00000000#32))) y
    (mulf (broadcastInDim S50000x128 ![] bcast_S_S50000x128 (id (constant (F := Ideal) S_ .f32 0x3C23D70A#32))) y)

theorem lreluV_apply (y : FVec Ideal S50000x128 .f32) (p : Fin 50000) (q : Fin 128) :
    lreluV y (ix2 p q) = Cert.Spec.lrelu (y (ix2 p q)) := by
  unfold lreluV
  rw [select_apply, cmpf_apply, mulf_apply, broadcastInDim_scalar_apply, broadcastInDim_scalar_apply]
  show Scalar.select (Ideal.cmp .oge (y (ix2 p q)) (Ideal.ofBits .f32 0x00000000#32)) (y (ix2 p q))
      (Ideal.ofBits .f32 0x3C23D70A#32 * y (ix2 p q)) = _
  rw [Ideal.ofBits_zero_f32]
  unfold Cert.Spec.lrelu Cert.Spec.slope Ideal.cmp Scalar.select
  by_cases h : (0 : EReal) ≤ y (ix2 p q)
  · rw [if_pos h, if_pos (by simp [h])]
  · rw [if_neg h, if_neg (by simp [h])]

/-- The third convolution layer before its rectifier: rows of the aggregate scaled by the destination norms, times the third
    weight slab, plus the third bias row. -/
def convPre (agg : FVec Ideal S50000x128 .f32) (nrm : FVec Ideal S50000 .f32) (w : FVec Ideal S3x128x128 .f32)
    (b : FVec Ideal S3x128 .f32) : FVec Ideal S50000x128 .f32 :=
  addf (Host.dotGeneral dot_S50000x128_S128x128_S50000x128_1_0_0_1_n_n none
          (mulf agg (broadcastInDim S50000x128 ![0, 1] bcast_S50000x1_S50000x128_0_1 (broadcastInDim S50000x1 ![0] bcast_S50000_S50000x1_0 nrm)))
          (shapeCast S128x128 (extractStridedSlice S1x128x128 ![2, 0, 0] w slices_S3x128x128_S1x128x128_2_0_0) shapeCasts_S1x128x128_S128x128))
    (broadcastInDim S50000x128 ![0, 1] bcast_S1x128_S50000x128_0_1 (broadcastInDim S1x128 ![1] bcast_S128_S1x128_1
        (shapeCast S128 (extractStridedSlice S1x128 ![2, 0] b slices_S3x128_S1x128_2_0) shapeCasts_S1x128_S128)))

theorem convPre_apply (agg : FVec Ideal S50000x128 .f32) (nrm : FVec Ideal S50000 .f32) (w : FVec Ideal S3x128x128 .f32)
    (b : FVec Ideal S3x128 .f32) (p : Fin 50000) (q : Fin 128) :
    convPre agg nrm w b (ix2 p q)
      = (∑ k : Fin 128, (agg (ix2 p k) * nrm (ix1 p)) * w (ix3 (2 : Fin 3) k q)) + b (ix2 (2 : Fin 3) q) := by
  unfold convPre
  rw [addf_apply, Cert.LibDot.dotGeneral_apply _ rfl rfl rfl rfl rfl rfl, bIn_rows_apply, row2_apply]
  congr 1
  refine Finset.sum_congr rfl fun k _ => ?_
  rw [mulf_apply, bIn_cols_apply, slab2_apply]

/-- The reduction layer: features times weights plus the bias. -/
def linPre (x : FVec Ideal S50000x256 .f32) (w : FVec Ideal S256x128 .f32) (b : FVec Ideal S128 .f32) : FVec Ideal S50000x128 .f32 :=
  addf (Host.dotGeneral dot_S50000x256_S256x128_S50000x128_1_0_0_1_n_n none x w)
    (broadcastInDim S50000x128 ![0, 1] bcast_S1x128_S50000x128_0_1 (broadcastInDim S1x128 ![1] bcast_S128_S1x128_1 b))

/-- A matrix with each row scaled by that row's entry of a vector. -/
def rowScale (h : FVec Ideal S50000x128 .f32) (n : FVec Ideal S50000 .f32) : FVec Ideal S50000x128 .f32 :=
  mulf h (broadcastInDim S50000x128 ![0, 1] bcast_S50000x1_S50000x128_0_1 (broadcastInDim S50000x1 ![0] bcast_S50000_S50000x1_0 n))

theorem lin_apply (x : FVec Ideal S50000x256 .f32) (w : FVec Ideal S256x128 .f32) (b : FVec Ideal S128 .f32)
    (n : FVec Ideal S50000 .f32) (p : Fin 50000) (q : Fin 128) :
    rowScale (linPre x w b) n (ix2 p q) = ((∑ k : Fin 256, x (ix2 p k) * w (ix2 k q)) + b (ix1 q)) * n (ix1 p) := by
  unfold rowScale linPre
  rw [mulf_apply, addf_apply, Cert.LibDot.dotGeneral_apply _ rfl rfl rfl rfl rfl rfl, bIn_rows_apply, bIn_cols_apply]

/-- The pooling: rows of `out` added into the zero array at their graph numbers. -/
def poolV (gid : IVec S50000 32) (out : FVec Ideal S50000x128 .f32) : FVec Ideal S128x128 .f32 :=
  Host.scatterAdd scatter_S128x128_S50000x1_S50000x128_1_0_0_1
    (broadcastInDim S128x128 ![] bcast_S_S128x128 (constant (F := Ideal) S_ .f32 0x00000000#32))
    (broadcastInDim S50000x1 ![0] bcast_S50000_S50000x1_0 gid) out

/-- Entry `(j, k)` of the pooling is the sum of column `k` over the rows whose graph number, read signed, is `j`. -/
theorem poolV_apply (gid : IVec S50000 32) (out : FVec Ideal S50000x128 .f32) (j k : Fin 128) :
    poolV gid out (ix2 j k) = ∑ r : Fin 50000, if (gid (ix1 r)).toInt = (j.val : Int) then out (ix2 r k) else 0 := by
  unfold poolV
  rw [Cert.LibIndex.scatterAdd_row_apply_of _ rfl rfl rfl rfl, broadcastInDim_scalar_apply, constant_apply,
    Ideal.ofBits_zero_f32, zero_add]
  refine Finset.sum_congr rfl fun r _ => ?_
  rw [bIn_col_apply]

/-- The classifier: the pooled rows times the class weights, plus the class bias. -/
def clsV (g : FVec Ideal S128x128 .f32) (w : FVec Ideal S128x2 .f32) (b : FVec Ideal S2 .f32) : FVec Ideal S128x2 .f32 :=
  addf (Host.dotGeneral dot_S128x128_S128x2_S128x2_1_0_0_1_n_n none g w)
    (broadcastInDim S128x2 ![0, 1] bcast_S1x2_S128x2_0_1 (broadcastInDim S1x2 ![1] bcast_S2_S1x2_1 b))

theorem clsV_apply (g : FVec Ideal S128x128 .f32) (w : FVec Ideal S128x2 .f32) (b : FVec Ideal S2 .f32) (j : Fin 128) (d : Fin 2) :
    clsV g w b (ix2 j d) = (∑ k : Fin 128, g (ix2 j k) * w (ix2 k d)) + b (ix1 d) := by
  unfold clsV
  rw [addf_apply, Cert.LibDot.dotGeneral_apply _ rfl rfl rfl rfl rfl rfl, bIn_rows_apply]

/-- A degree normalisation: ones added at the edge ends `e`, at least one, to the power −½. -/
def degNorm (e : IVec S800000 32) : FVec Ideal S50000 .f32 :=
  Host.powf (maximumf (Host.scatterAdd scatter_S50000_S800000x1_S800000_n_0_0_1
        (broadcastInDim S50000 ![] bcast_S_S50000 (constant (F := Ideal) S_ .f32 0x00000000#32))
        (broadcastInDim S800000x1 ![0] bcast_S800000_S800000x1_0 e)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The edge aggregation: the rows of `h` gathered at the edge sources `src` (a negative index wrapped once) and added into
    the zero array at the edge targets `dst`. -/
def edgeAgg (src dst : IVec S800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ## Typed references

The outlined rectifier names its buffers through typed references: a value is carried to the buffer's own contents type and
back along the equation between the two types. Going there and back is the identity whatever the reference is, and for a
literal buffer each single transport is the identity because the two types are the same by computation. -/

/-- Carried to the buffer's type and back, a value is unchanged. -/
theorem ofBuf_toBuf {T : BufTy} (x : TRef sig T) (v : T.Contents (Elt Ideal)) : x.ofBuf (x.toBuf v) = v := by
  obtain ⟨r, h, _, _⟩ := x
  subst h
  rfl

theorem ofBuf_v92 (v : (main_v92 : Ref sig .tc).ty.Contents (Elt Ideal)) :
    (TRef.of (T := ⟨S50000x128, .f32⟩) main_v92).ofBuf v = v := rfl

theorem ofBuf_cst16 (v : (main_cst_16 : Ref sig .tc).ty.Contents (Elt Ideal)) :
    (TRef.of (T := ⟨S_, .f32⟩) main_cst_16).ofBuf v = v := rfl

theorem toBuf_v93 (v : (⟨S50000x128, .f32⟩ : BufTy).Contents (Elt Ideal)) :
    (TRef.of (T := ⟨S50000x128, .f32⟩) main_v93).toBuf v = v := rfl

/-! ## The stages taken out of the run

`Rf b` is what buffer `b` holds after the reference's line run from the contents `W`, `Arg b` what `W` itself has at `b`.
Each equation gives one buffer as its stage's operations applied to the buffers the stage reads. The line is cut where the
stage begins (or ends): what the cut-off part leaves is one valuation, the stage's own operations are unfolded over it, and
both sides become the same term. -/

/-- A line run in two parts. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => rw [List.cons_append, after_cons, after_cons, ih]

/-- The reference's line cut after its first `k` operations. -/
theorem after_split (k : ℕ) (W : Valuation τ sig (Elt Ideal)) :
    StableHlo.after (ops (F := Ideal)) W
      = StableHlo.after ((ops (F := Ideal)).drop k) (StableHlo.after ((ops (F := Ideal)).take k) W) := by
  rw [← after_append, List.take_append_drop]

section Run
variable (W : Valuation τ sig (Elt Ideal))

set_option quotPrecheck false in
local notation:max "Rf" b:max => (StableHlo.after (ops (F := Ideal)) W (Proc.devRef .tc b))
set_option quotPrecheck false in
local notation:max "Arg" b:max => (W (Proc.devRef .tc b))

set_option maxHeartbeats 4000000 in
set_option maxRecDepth 8192 in
/-- The result is the classifier on the pooled third layer (the line's last eight operations). -/
theorem run_v100 : Rf main_v100 = clsV (poolV (Rf main_arg3) (Rf main_v93)) (Rf main_arg8) (Rf main_arg9) := by
  unfold clsV poolV
  rw [after_split 131 W]
  generalize StableHlo.after (List.take 131 (ops (F := Ideal))) W = V
  simp only [ops, List.drop_succ_cons, List.drop_zero]
  after_results_simp

set_option maxHeartbeats 4000000 in
set_option maxRecDepth 8192 in
/-- The aggregate is the edge gather and scatter-add of the scaled reduction layer (the thirteen operations after it). -/
theorem run_v85 : Rf main_v85 = edgeAgg (Rf main_arg1) (Rf main_arg2) (Rf main_v75) := by
  unfold edgeAgg
  rw [after_split 103 W]
  generalize StableHlo.after (List.take 103 (ops (F := Ideal))) W = V
  simp only [ops, List.drop_succ_cons, List.drop_zero]
  after_results_simp

set_option maxHeartbeats 4000000 in
set_option maxRecDepth 8192 in
/-- The scaled reduction layer is the reduction layer with each row scaled by its source norm (three operations). -/
theorem run_v75 : Rf main_v75 = rowScale (Rf main_v18) (Rf main_v10) := by
  unfold rowScale
  rw [after_split 100 W]
  generalize StableHlo.after (List.take 100 (ops (F := Ideal))) W = V
  simp only [ops, List.drop_succ_cons, List.drop_zero]
  after_results_simp

set_option maxHeartbeats 4000000 in
set_option maxRecDepth 8192 in
/-- The reduction layer, from the arguments (within the line's first twenty-six operations; nothing later writes it). -/
theorem run_v18 : Rf main_v18 = linPre (Arg main_arg0) (Arg main_arg4) (Arg main_arg5) := by
  unfold linPre
  rw [after_split 26 W]
  simp only [ops, List.drop_succ_cons, List.drop_zero, List.take_succ_cons, List.take_zero]
  after_results_simp

set_option maxHeartbeats 4000000 in
set_option maxRecDepth 8192 in
/-- The source norms, from the edge sources (the line's first sixteen operations; nothing later writes the buffer). -/
theorem run_v10 : Rf main_v10 = degNorm (Arg main_arg1) := by
  unfold degNorm
  rw [after_split 16 W]
  simp only [ops, List.drop_succ_cons, List.drop_zero, List.take_succ_cons, List.take_zero]
  after_results_simp

set_option maxHeartbeats 4000000 in
set_option maxRecDepth 8192 in
/-- The destination norms, from the edge targets (within the line's first twenty-two operations). -/
theorem run_v14 : Rf main_v14 = degNorm (Arg main_arg2) := by
  unfold degNorm
  rw [after_split 22 W]
  simp only [ops, List.drop_succ_cons, List.drop_zero, List.take_succ_cons, List.take_zero]
  after_results_simp

set_option maxHeartbeats 4000000 in
set_option maxRecDepth 8192 in
/-- The third layer before its rectifier reads the aggregate, the destination norms and the stacked parameters (the operations
    from the third weight slice to the layer's bias add). -/
theorem run_v92 : Rf main_v92 = convPre (Rf main_v85) (Rf main_v14) (Rf main_arg6) (Rf main_arg7) := by
  unfold convPre
  rw [after_split 96 W]
  generalize StableHlo.after (List.take 96 (ops (F := Ideal))) W = V
  simp only [ops, List.drop_succ_cons, List.drop_zero]
  after_results_simp
  rfl

set_option maxHeartbeats 4000000 in
set_option maxRecDepth 8192 in
/-- The third layer's output is the rectifier on that (the seven operations of the outlined rectifier, inline). -/
theorem run_v93 : Rf main_v93 = lreluV (Rf main_v92) := by
  unfold lreluV
  rw [after_split 123 W]
  generalize StableHlo.after (List.take 123 (ops (F := Ideal))) W = V
  simp only [ops, List.drop_succ_cons, List.drop_zero]
  after_results_simp
  simp only [ofBuf_toBuf, ofBuf_v92, ofBuf_cst16, toBuf_v93]
  rw [ofBuf_v92]

/-! ## The values read at an index

No operation of the line writes an argument, so an argument's buffer still holds what `W` has. -/

theorem ref_v100_apply (j : Fin 128) (d : Fin 2) :
    Rf main_v100 (ix2 j d)
      = Cert.Spec.clsAt (Cert.Spec.gAt (fun r k => Rf main_v93 (ix2 r k)) (fun r => Arg main_arg3 (ix1 r)))
          (fun k d => Arg main_arg8 (ix2 k d)) (fun d => Arg main_arg9 (ix1 d)) j d := by
  rw [run_v100 W, clsV_apply, (kept W).2.2.2.1, (kept W).2.2.2.2.2.2.2.2.1, (kept W).2.2.2.2.2.2.2.2.2]
  unfold Cert.Spec.clsAt Cert.Spec.gAt
  refine congrArg₂ (· + ·) (Finset.sum_congr rfl fun k _ => ?_) rfl
  rw [poolV_apply]

theorem ref_v93_apply (p : Fin 50000) (q : Fin 128) :
    Rf main_v93 (ix2 p q)
      = Cert.Spec.convAt (fun p k => Rf main_v85 (ix2 p k)) (fun p => Rf main_v14 (ix1 p))
          (fun k q => Arg main_arg6 (ix3 (2 : Fin 3) k q)) (fun q => Arg main_arg7 (ix2 (2 : Fin 3) q)) p q := by
  rw [run_v93 W, lreluV_apply, run_v92 W, convPre_apply, (kept W).2.2.2.2.2.2.1, (kept W).2.2.2.2.2.2.2.1]
  rfl

theorem ref_v85_eq :
    Rf main_v85
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (Arg main_arg2 : IVec S800000 32))
          (Host.gather gather_S50000x128_S800000x1_S800000x128_1_0_n_n_0_1_1128 (Rf main_v75 : FVec Ideal S50000x128 .f32)
            (broadcastInDim S800000x1 ![0] bcast_S800000_S800000x1_0
              (select (cmpi .slt (Arg main_arg1 : IVec S800000 32) (broadcastInDim S800000 ![] bcast_S_S800000 (constantI S_ 32 0#32)))
                (addi (Arg main_arg1 : IVec S800000 32) (broadcastInDim S800000 ![] bcast_S_S800000 (constantI S_ 32 50000#32)))
                (Arg main_arg1 : IVec S800000 32)))) := by
  rw [run_v85 W, (kept W).2.1, (kept W).2.2.1]
  rfl

theorem ref_v75_apply (p : Fin 50000) (q : Fin 128) :
    Rf main_v75 (ix2 p q)
      = Cert.Spec.linAt (fun p k => Arg main_arg0 (ix2 p k)) (fun k q => Arg main_arg4 (ix2 k q)) (fun q => Arg main_arg5 (ix1 q))
          (fun p => Rf main_v10 (ix1 p)) p q := by
  rw [run_v75 W, run_v18 W, lin_apply]
  rfl

theorem ref_v10_eq :
    Rf main_v10
      = Host.powf (maximumf (Host.scatterAdd scatter_S50000_S800000x1_S800000_n_0_0_1
              (broadcastInDim S50000 ![] bcast_S_S50000 (constant (F := Ideal) S_ .f32 0x00000000#32))
              (broadcastInDim S800000x1 ![0] bcast_S800000_S800000x1_0 (Arg main_arg1 : IVec S800000 32))
              (broadcastInDim S800000 ![] bcast_S_S800000 (constant (F := Ideal) S_ .f32 0x3F800000#32)))
            (broadcastInDim S50000 ![] bcast_S_S50000 (constant (F := Ideal) S_ .f32 0x3F800000#32)))
          (broadcastInDim S50000 ![] bcast_S_S50000 (constant (F := Ideal) S_ .f32 0xBF000000#32)) :=
  run_v10 W

theorem ref_v14_eq :
    Rf main_v14
      = Host.powf (maximumf (Host.scatterAdd scatter_S50000_S800000x1_S800000_n_0_0_1
              (broadcastInDim S50000 ![] bcast_S_S50000 (constant (F := Ideal) S_ .f32 0x00000000#32))
              (broadcastInDim S800000x1 ![0] bcast_S800000_S800000x1_0 (Arg main_arg2 : IVec S800000 32))
              (broadcastInDim S800000 ![] bcast_S_S800000 (constant (F := Ideal) S_ .f32 0x3F800000#32)))
            (broadcastInDim S50000 ![] bcast_S_S50000 (constant (F := Ideal) S_ .f32 0x3F800000#32)))
          (broadcastInDim S50000 ![] bcast_S_S50000 (constant (F := Ideal) S_ .f32 0xBF000000#32)) :=
  run_v14 W

end Run

end Cert.ReferenceIdeal.HandValue

end
-- ==== Proof.Bridge.lean ====
/-
  The two programs compute one function.  Entry (j, d) of the kernel program's result is the classifier applied to the
  per-graph readout of the convolution layer's rows, and so is the reference's; the convolution layer reads the aggregated
  messages, which both programs obtain by the SAME gather and scatter-add from the reduction layer's rows; and the
  reduction layer's rows and the two normalisation vectors are the same functions of the arguments.  So, from memories
  that agree on the ten arguments, the two results agree entry by entry.
-/
import proofs.«405063_j37941741093409_1_alg».proof.Proof.KI.Chain
import proofs.«405063_j37941741093409_1_alg».proof.Proof.Ref.Val
import proofs.«405063_j37941741093409_1_alg».proof.Proof.Spec

set_option maxRecDepth 16384

noncomputable section

namespace Cert.Proof.Bridge

open Idealize.ShloMosaic Idealize.ShloMosaic.TcCoe Idealize.ShloMosaic.StableHlo Idealize.ShloMosaic.ValueIdx Idealize.SL.Sem
open Cert.KernelIdeal.Hand Cert.KernelIdeal.HandValue Cert.ReferenceIdeal.HandRun Cert.ReferenceIdeal.HandValue

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

variable (m : KMem) (m' : RMem) (c : Dev Cert.KernelIdeal.nD)

/-- The two memories hold the same ten arguments on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable (h : Agree m m' c)

local notation "W'" => StableHlo.launchContents m' c
local notation "Rf[" b "]" => StableHlo.after (Cert.ReferenceIdeal.HandRun.ops (F := Ideal)) (StableHlo.launchContents m' c) (Proc.devRef Proc.tc b)

include h

/-! ## The normalisation vectors -/

/-- The source-side normalisation, max(out-degree, 1)^(-1/2): both programs apply the same operations to the same edge sources. -/
theorem nrmO_eq : (Rf[Cert.ReferenceIdeal.main_v10] : Cert.KernelIdeal.S50000.Idx → EReal) = nrmO m c := by
  rw [ref_v10_eq W', show W' (Proc.devRef .tc Cert.ReferenceIdeal.main_arg1) = W0 m c (Proc.devRef .tc Cert.KernelIdeal.main_arg1) from h.a1]
  exact (h0_v10 (W0 m c)).symm

/-- The destination-side normalisation, from the edge destinations. -/
theorem nrmI_eq : (Rf[Cert.ReferenceIdeal.main_v14] : Cert.KernelIdeal.S50000.Idx → EReal) = nrmI m c := by
  rw [ref_v14_eq W', show W' (Proc.devRef .tc Cert.ReferenceIdeal.main_arg2) = W0 m c (Proc.devRef .tc Cert.KernelIdeal.main_arg2) from h.a2]
  exact (h0_v14 (W0 m c)).symm

/-! ## The reduction layer's rows -/

/-- What region 0 leaves is the reference's scaled reduction layer, as whole arrays. -/
theorem xs_eq : (W2 m c (Proc.devRef .tc Cert.KernelIdeal.main_v16) : Cert.KernelIdeal.S50000x128.Idx → EReal) = Rf[Cert.ReferenceIdeal.main_v75] := by
  funext jj
  obtain ⟨p, q, rfl⟩ : ∃ (p : Fin 50000) (q : Fin 128), jj = ix2 p q := ⟨jj 0, jj 1, eq_ix2 jj⟩
  rw [xs_apply m c p q, ref_v75_apply W' p q]
  exact linAt_congr (fun p k => congrFun h.a0.symm _) (fun k q => congrFun h.a4.symm _) (fun q => congrFun h.a5.symm _)
    (fun p => congrFun (nrmO_eq m m' c h).symm _) p q

/-! ## The aggregated messages: one gather and scatter-add on both sides -/

theorem agg_eq' : (W3 m c (Proc.devRef .tc Cert.KernelIdeal.main_v26) : Cert.KernelIdeal.S50000x128.Idx → EReal) = Rf[Cert.ReferenceIdeal.main_v85] := by
  rw [agg_eq m c, ref_v85_eq W', ← xs_eq m m' c h,
    show W' (Proc.devRef .tc Cert.ReferenceIdeal.main_arg1) = m ((c : Thread Cert.KernelIdeal.nD Cert.KernelIdeal.τ).loc Cert.KernelIdeal.main_arg1) from h.a1,
    show W' (Proc.devRef .tc Cert.ReferenceIdeal.main_arg2) = m ((c : Thread Cert.KernelIdeal.nD Cert.KernelIdeal.τ).loc Cert.KernelIdeal.main_arg2) from h.a2]
  rfl

/-! ## The convolution layer's rows -/

theorem out_eq (p : Fin 50000) (q : Fin 128) :
    (W4 m c (Proc.devRef .tc Cert.KernelIdeal.main_v32) : Cert.KernelIdeal.S50000x128.Idx → EReal) (ix2 p q) = Rf[Cert.ReferenceIdeal.main_v93] (ix2 p q) := by
  rw [out_apply m c p q, ref_v93_apply W' p q]
  exact convAt_congr (fun p k => congrFun (agg_eq' m m' c h) _) (fun p => congrFun (nrmI_eq m m' c h).symm _)
    (fun k q => congrFun h.a6.symm _) (fun q => congrFun h.a7.symm _) p q

/-! ## The result -/

/-- The reference's result array is what region 2's write-back leaves in the kernel program's. -/
theorem result_eq : Rf[Cert.ReferenceIdeal.main_v100] = (dat2 (V5 m) c).arrAt 4 Cert.KernelIdeal.cfg2.N := by
  funext jj
  obtain ⟨j, d, rfl⟩ : ∃ (j : Fin 128) (d : Fin 2), jj = ix2 j d := ⟨jj 0, jj 1, eq_ix2 jj⟩
  rw [ref_v100_apply W' j d, res_apply m c j d]
  exact clsAt_gAt_congr (fun r k => (out_eq m m' c h r k).symm) (fun r => congrFun h.a3 _) (fun k d => congrFun h.a8 _)
    (fun d => congrFun h.a9 _) j d

end Cert.Proof.Bridge

end
-- ==== Proof.lean ====
/-
  The certificate's five claims.

  The kernel program is three pipelined regions among stretches of host operations.  Region 0 computes the reduction layer's
  rows (features · weights + bias, scaled by the source-side normalisation), region 1 the last convolution layer
  (aggregated messages scaled by the destination-side normalisation, · weights + bias, through the leaky rectifier), region 2
  the per-graph readout — accumulated over the ten grid points in a scratch array as one-hot matrices times row blocks — and
  the classifier.  Its frame, at either float instance, is the run of those six items: every weakly fair execution
  terminates without a fault and leaves the arguments as launched.  The reference is host operations only: its frame is
  its run read back.  The idealization rewrote nothing.  And on the extended reals the two results agree entry by entry:
  both are the classifier of the readout of the convolution layer, whose aggregated input both programs obtain by the same
  gather and scatter-add from the same reduction layer; the readout as ten block sums of one-hot products is the sum over the
  rows of each graph, by commutativity and associativity of addition and 0 · x = 0 alone.
-/
import proofs.«405063_j37941741093409_1_alg».proof.Defs
import proofs.«405063_j37941741093409_1_alg».proof.Proof.Gen.Kernel
import proofs.«405063_j37941741093409_1_alg».proof.Proof.Gen.KernelIdeal
import proofs.«405063_j37941741093409_1_alg».proof.Proof.Gen.ReferenceIdeal
import proofs.«405063_j37941741093409_1_alg».proof.Proof.Gen.Pre_finite_inputs
import proofs.«405063_j37941741093409_1_alg».proof.Proof.K.Run
import proofs.«405063_j37941741093409_1_alg».proof.Proof.KI.Run
import proofs.«405063_j37941741093409_1_alg».proof.Proof.Ref.Run
import proofs.«405063_j37941741093409_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs, and no operation of it writes an argument. -/
theorem frame_ri : Cert.frame_ReferenceIdeal := fun m ρ _ =>
  (θ_run Cert.ReferenceIdeal.defs _ _).mono (fun r h c =>
    have k := Cert.ReferenceIdeal.HandRun.kept (F := Ideal) (StableHlo.launchContents m c)
    ⟨(h c Cert.ReferenceIdeal.main_arg0).trans k.1, (h c Cert.ReferenceIdeal.main_arg1).trans k.2.1,
     (h c Cert.ReferenceIdeal.main_arg2).trans k.2.2.1, (h c Cert.ReferenceIdeal.main_arg3).trans k.2.2.2.1,
     (h c Cert.ReferenceIdeal.main_arg4).trans k.2.2.2.2.1, (h c Cert.ReferenceIdeal.main_arg5).trans k.2.2.2.2.2.1,
     (h c Cert.ReferenceIdeal.main_arg6).trans k.2.2.2.2.2.2.1, (h c Cert.ReferenceIdeal.main_arg7).trans k.2.2.2.2.2.2.2.1,
     (h c Cert.ReferenceIdeal.main_arg8).trans k.2.2.2.2.2.2.2.2.1, (h c Cert.ReferenceIdeal.main_arg9).trans k.2.2.2.2.2.2.2.2.2⟩)
    (Cert.ReferenceIdeal.HandRun.run (F := Ideal) m ρ)

/-- On the extended reals, from memories that agree on the arguments, the kernel program's result array — what region 2's
    one write-back leaves — is the reference's. -/
theorem algebraic : Cert.algebraic_KernelIdeal_ReferenceIdeal := by
  intro m ρ m' ρ' _ hagree
  refine ⟨fun c => (Cert.KernelIdeal.Hand.dat2 (Cert.KernelIdeal.Hand.V5 m) c).arrAt 4 Cert.KernelIdeal.cfg2.N,
    Cert.KernelIdeal.Hand.run_value m ρ, ?_⟩
  refine (θ_run Cert.ReferenceIdeal.defs _ _).mono (fun r h c => ?_) (Cert.ReferenceIdeal.HandRun.run (F := Ideal) m' ρ')
  have k := Cert.ReferenceIdeal.HandRun.kept (F := Ideal) (StableHlo.launchContents m' c)
  have ha : Cert.Proof.Bridge.Agree m m' c :=
    ⟨(hagree c).1, (hagree c).2.1, (hagree c).2.2.1, (hagree c).2.2.2.1, (hagree c).2.2.2.2.1, (hagree c).2.2.2.2.2.1,
     (hagree c).2.2.2.2.2.2.1, (hagree c).2.2.2.2.2.2.2.1, (hagree c).2.2.2.2.2.2.2.2.1, (hagree c).2.2.2.2.2.2.2.2.2⟩
  exact ⟨(h c Cert.ReferenceIdeal.main_v100).trans (Cert.Proof.Bridge.result_eq m m' c ha),
     (h c Cert.ReferenceIdeal.main_arg0).trans k.1, (h c Cert.ReferenceIdeal.main_arg1).trans k.2.1,
     (h c Cert.ReferenceIdeal.main_arg2).trans k.2.2.1, (h c Cert.ReferenceIdeal.main_arg3).trans k.2.2.2.1,
     (h c Cert.ReferenceIdeal.main_arg4).trans k.2.2.2.2.1, (h c Cert.ReferenceIdeal.main_arg5).trans k.2.2.2.2.2.1,
     (h c Cert.ReferenceIdeal.main_arg6).trans k.2.2.2.2.2.2.1, (h c Cert.ReferenceIdeal.main_arg7).trans k.2.2.2.2.2.2.2.1,
     (h c Cert.ReferenceIdeal.main_arg8).trans k.2.2.2.2.2.2.2.2.1, (h c Cert.ReferenceIdeal.main_arg9).trans k.2.2.2.2.2.2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
